-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v41_0)) (v1 : (c : Dev Cert.KernelIdeal.nD) → Buf (Elt Ideal) ((c.tc : Thread Cert.KernelIdeal.nD Cert.KernelIdeal.τ).loc Cert.KernelIdeal.main_v41_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41_0) = v0 c
          ∧ r.2.mem ((c.tc : Thread Cert.KernelIdeal.nD Cert.KernelIdeal.τ).loc Cert.KernelIdeal.main_v41_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000 : Shape := ⟨1, ![100000]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000 : S_.BroadcastsInDim S100000 (![] : Fin 0 → Fin S100000.rank)
  reducesTo_S100000_S_d0 : S100000.ReducesTo [0] S_
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64x64 .f32) (main_arg10 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S1600000 .f32) (main_arg7 : FVec F S64x64 .f32) (main_arg8 : FVec F S64 .f32) (main_arg9 : FVec F S64x64 .f32) (main_arg10 : FVec F S64 .f32) (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  let main_v19 : FVec F S1600000 .f32 := Host.absf main_arg4
  let main_cst_6 : FVec F S_ .f32 := constant S_ .f32 0x7F800000#32
  let main_v20 : FVec F S1600000 .f32 := broadcastInDim S1600000 ![] bcast_S_S1600000 main_cst_6
  let main_v21 : IVec S1600000 1 := cmpf .olt main_v19 main_v20
  let main_c_7 : IVec S_ 1 := constantI S_ 1 1#1
  let main_v22 : IVec S_ 1 := (fun x v => Host.reduce IntOp.andi x v reducesTo_S1600000_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : FVec F S100000x64 .f32) (main_arg2 : FVec F S100000 .f32) (main_arg3 : FVec F S1600000 .f32) (main_arg4 : FVec F S1600000 .f32) (main_arg5 : IVec S1600000 32) (main_arg6 : IVec S1600000 32) (main_arg7 : FVec F S64x64 .f32) (main_arg8 : FVec F S64 .f32) (main_arg9 : FVec F S64x64 .f32) (main_arg10 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S1600000 .f32 := Host.absf main_arg3
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_arg4 main_arg7 main_arg8 main_arg9 main_arg10 main_v13 main_v16
-- ==== Kernel.lean ====
abbrev S100000x64 : Shape := ⟨2, ![100000, 64]⟩
abbrev S100000 : Shape := ⟨1, ![100000]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S8000x64 : Shape := ⟨2, ![8000, 64]⟩
abbrev S8000x1 : Shape := ⟨2, ![8000, 1]⟩
abbrev S1x64 : Shape := ⟨2, ![1, 64]⟩
abbrev S1000x64 : Shape := ⟨2, ![1000, 64]⟩

abbrev nBuf : Space → Nat
  | .hbm => 65
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S100000, .f32⟩
  | .hbm, ⟨3, _⟩ => ⟨S1600000, .f32⟩
  | .hbm, ⟨4, _⟩ => ⟨S1600000, .f32⟩
  | .hbm, ⟨5, _⟩ => ⟨S1600000, .i32⟩
  | .hbm, ⟨6, _⟩ => ⟨S1600000, .i32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000, .f32⟩
  | .hbm, ⟨47, _⟩ => ⟨S1600000, .f32⟩
  | .hbm, ⟨48, _⟩ => ⟨S1600000x1, .f32⟩
  | .hbm, ⟨49, _⟩ => ⟨S1600000x1, .f32⟩
  | .hbm, ⟨50, _⟩ => ⟨S1600000x1, .f32⟩
  | .hbm, ⟨51, _⟩ => ⟨S1600000x64, .f32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S1x64, .f32⟩
  | .hbm, ⟨62, _⟩ => ⟨S1x64, .f32⟩
  | .hbm, ⟨63, _⟩ => ⟨S100000x64, .f32⟩
  | .hbm, ⟨64, _⟩ => ⟨S100000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x1, .f32⟩
  | .local _ .vmem, ⟨5, _⟩ => ⟨S8000x1, .f32⟩
  | .local _ .vmem, ⟨6, _⟩ => ⟨S8000x1, .f32⟩
  | .local _ .vmem, ⟨7, _⟩ => ⟨S8000x1, .f32⟩
  | .local _ .vmem, ⟨8, _⟩ => ⟨S8000x1, .f32⟩
  | .local _ .vmem, ⟨9, _⟩ => ⟨S8000x1, .f32⟩
  | .local _ .vmem, ⟨10, _⟩ => ⟨S8000x64, .f32⟩
  | .local _ .vmem, ⟨11, _⟩ => ⟨S8000x64, .f32⟩
  | .local _ .vmem, ⟨12, _⟩ => ⟨S8000x64, .f32⟩
  | .local _ .vmem, ⟨13, _⟩ => ⟨S8000x64, .f32⟩
  | .local _ .vmem, ⟨14, _⟩ => ⟨S1000x64, .f32⟩
  | .local _ .vmem, ⟨15, _⟩ => ⟨S1000x64, .f32⟩
  | .local _ .vmem, ⟨16, _⟩ => ⟨S1000x64, .f32⟩
  | .local _ .vmem, ⟨17, _⟩ => ⟨S1000x64, .f32⟩
  | .local _ .vmem, ⟨18, _⟩ => ⟨S64x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S1000x64, .f32⟩
  | .local _ .vmem, ⟨23, _⟩ => ⟨S1000x64, .f32⟩
  | .local _ .vmem, ⟨24, _⟩ => ⟨S1000x64, .f32⟩
  | .local _ .vmem, ⟨25, _⟩ => ⟨S1000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32_0 : Ref sig .tc := ⟨.hbm, 51, rfl⟩
abbrev main_v32_1 : Ref sig .tc := ⟨.hbm, 52, rfl⟩
abbrev main_cst : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41_0 : Ref sig .tc := ⟨.hbm, 63, rfl⟩
abbrev main_v41_1 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000_S1600000x1 : S1600000.ShapeCasts S1600000x1
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x64 : S8000x1.Broadcasts S8000x64
  bcast_S_S100000x64 : S_.BroadcastsInDim S100000x64 (![] : Fin 0 → Fin S100000x64.rank)
  shapeCasts_S64_S1x64 : S64.ShapeCasts S1x64
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S64x64_p1_0_S64x64 : S64x64.Transposes [1, 0] S64x64
  broadcasts_S1x64_S1000x64 : S1x64.Broadcasts S1000x64
  gather_S100000x64_S1600000x1_S1600000x64_1_0_n_n_0_1_164_wf : GatherDims.WF S100000x64 S1600000x1 S1600000x64 [1] [0] [] [0] [] 1 ![1, 64]
  gather_S100000_S1600000x1_S1600000_n_0_n_n_0_1_1_wf : GatherDims.WF S100000 S1600000x1 S1600000 [] [0] [] [0] [] 1 ![1]
  scatter_S100000x64_S1600000x1_S1600000x64_1_0_0_1_wf : ScatterDims.WF S100000x64 S1600000x1 S1600000x64 [1] [0] [0] 1
  dot_S1000x64_S64x64_S1000x64_1_0_0_1_n_n_wf : DotDims.WF S1000x64 S64x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1600000x64.size a
  hwx0_0 : ∀ i : grid0.Coords, EltTy.bits .f32 = 32 ∨ (Rect.block (s := S1600000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1600000x64.size a
  hwx0_1 : ∀ i : grid0.Coords, EltTy.bits .f32 = 32 ∨ (Rect.block (s := S1600000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x1.size a ≤ S1600000x1.size a
  hwx0_2 : ∀ i : grid0.Coords, EltTy.bits .f32 = 32 ∨ (Rect.block (s := S1600000x1) S8000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x1.size a ≤ S1600000x1.size a
  hwx0_3 : ∀ i : grid0.Coords, EltTy.bits .f32 = 32 ∨ (Rect.block (s := S1600000x1) S8000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x1.size a ≤ S1600000x1.size a
  hwx0_4 : ∀ i : grid0.Coords, EltTy.bits .f32 = 32 ∨ (Rect.block (s := S1600000x1) S8000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x64.size a ≤ S1600000x64.size a
  hwx0_5 : ∀ i : grid0.Coords, EltTy.bits .f32 = 32 ∨ (Rect.block (s := S1600000x64) S8000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x64.size a ≤ S1600000x64.size a
  hwx0_6 : ∀ i : grid0.Coords, EltTy.bits .f32 = 32 ∨ (Rect.block (s := S1600000x64) S8000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x64.size a ≤ S100000x64.size a
  hwx1_0 : ∀ i : grid1.Coords, EltTy.bits .f32 = 32 ∨ (Rect.block (s := S100000x64) S1000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x64.size a ≤ S100000x64.size a
  hwx1_1 : ∀ i : grid1.Coords, EltTy.bits .f32 = 32 ∨ (Rect.block (s := S100000x64) S1000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x64.size a ≤ S100000x64.size a
  hwx1_6 : ∀ i : grid1.Coords, EltTy.bits .f32 = 32 ∨ (Rect.block (s := S100000x64) S1000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x64.size a ≤ S100000x64.size a
  hwx1_7 : ∀ i : grid1.Coords, EltTy.bits .f32 = 32 ∨ (Rect.block (s := S100000x64) S1000x64.size (cc1_transform_7 i) (hinb1_7 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf

abbrev win0_0 : Pipeline.Window sig grid0 :=
  Pipeline.Window.ofSpec (Memref.whole main_v6) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S8000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S8000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v31) S8000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v32_0) S8000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v32_1) S8000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v35) S1000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41_0) S1000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v41_1) S1000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S100000 : Shape := ⟨1, ![100000]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S100000, .f32⟩
  | .hbm, ⟨3, _⟩ => ⟨S1600000, .f32⟩
  | .hbm, ⟨4, _⟩ => ⟨S1600000, .f32⟩
  | .hbm, ⟨5, _⟩ => ⟨S1600000, .i32⟩
  | .hbm, ⟨6, _⟩ => ⟨S1600000, .i32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S1600000, .f32⟩
  | .hbm, ⟨30, _⟩ => ⟨S1600000, .f32⟩
  | .hbm, ⟨31, _⟩ => ⟨S1600000x1, .f32⟩
  | .hbm, ⟨32, _⟩ => ⟨S1600000, .f32⟩
  | .hbm, ⟨33, _⟩ => ⟨S1600000x1, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S1600000x64, .f32⟩
  | .hbm, ⟨53, _⟩ => ⟨S1600000x64, .f32⟩
  | .hbm, ⟨54, _⟩ => ⟨S1600000x64, .f32⟩
  | .hbm, ⟨55, _⟩ => ⟨S1600000x64, .f32⟩
  | .hbm, ⟨56, _⟩ => ⟨S1600000x64, .f32⟩
  | .hbm, ⟨57, _⟩ => ⟨S1600000x64, .f32⟩
  | .hbm, ⟨58, _⟩ => ⟨S1600000x64, .f32⟩
  | .hbm, ⟨59, _⟩ => ⟨S1600000x64, .f32⟩
  | .hbm, ⟨60, _⟩ => ⟨S1600000x64, .f32⟩
  | .hbm, ⟨61, _⟩ => ⟨S1600000x64, .f32⟩
  | .hbm, ⟨62, _⟩ => ⟨S_, .f32⟩
  | .hbm, ⟨63, _⟩ => ⟨S100000x64, .f32⟩
  | .hbm, ⟨64, _⟩ => ⟨S1600000x1, .i32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S1600000x1, .i32⟩
  | .hbm, ⟨69, _⟩ => ⟨S100000x64, .f32⟩
  | .hbm, ⟨70, _⟩ => ⟨S64x64, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S64x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S64x64, .f32⟩
  | .hbm, ⟨82, _⟩ => ⟨S100000x64, .f32⟩
  | .hbm, ⟨83, _⟩ => ⟨S1x64, .f32⟩
  | .hbm, ⟨84, _⟩ => ⟨S100000x64, .f32⟩
  | .hbm, ⟨85, _⟩ => ⟨S100000x64, .f32⟩
  | .hbm, ⟨86, _⟩ => ⟨S64x64, .f32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Stretch.lean ====
/-
  The host operations around the two kernel regions, read back: what each array a region is entered with holds, as the
  host operations' term of the launch memory (and, for the second region, of the first region's two output arrays).

  Before the first region: jax wraps a negative index once by the table's extent 100000 (`wrapIdx`), gathers the rows
  h_re[src], h_im[src] and the numbers d[dst], d[src], multiplies the two, and reshapes d[dst]·d[src], w_re and w_im from
  vectors to columns [1600000, 1]. Between the regions: the two message arrays are summed into zeros per destination
  node (a scatter-add at the raw dst), and the two bias vectors are reshaped to rows [1, 64]. The weight matrices reach
  the second region untouched.
-/
import proofs.«132785_j67585605369883_1_alg».proof.Proof.Gen.KernelIdeal.Frame
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable {F : FTy → Type} [FloatOps F]

/-- An index vector with each negative entry wrapped once by 100000, as a column of start indices. -/
def wrapIdx (x : (⟨S1600000, .i32⟩ : BufTy).Contents (Elt F)) : (⟨S1600000x1, .i32⟩ : BufTy).Contents (Elt F) :=
  broadcastInDim S1600000x1 ![0] bcast_S1600000_S1600000x1_0
    (select (cmpi .slt x (broadcastInDim S1600000 ![] bcast_S_S1600000 (constantI S_ 32 0#32)))
      (addi x (broadcastInDim S1600000 ![] bcast_S_S1600000 (constantI S_ 32 100000#32))) x)

/-- Rows of a [100000, 64] table at wrapped indices. -/
def rowsAt (tab : (⟨S100000x64, .f32⟩ : BufTy).Contents (Elt F)) (x : (⟨S1600000, .i32⟩ : BufTy).Contents (Elt F)) :
    (⟨S1600000x64, .f32⟩ : BufTy).Contents (Elt F) :=
  Host.gather gather_S100000x64_S1600000x1_S1600000x64_1_0_n_n_0_1_164 tab (wrapIdx x)

/-- Entries of a [100000] table at wrapped indices. -/
def numsAt (tab : (⟨S100000, .f32⟩ : BufTy).Contents (Elt F)) (x : (⟨S1600000, .i32⟩ : BufTy).Contents (Elt F)) :
    (⟨S1600000, .f32⟩ : BufTy).Contents (Elt F) :=
  Host.gather gather_S100000_S1600000x1_S1600000_n_0_n_n_0_1_1 tab (wrapIdx x)

/-- Per destination node, the sum of the rows of `u` whose edge points at it (into zeros; at the raw dst). -/
def sumByDst (dst : (⟨S1600000, .i32⟩ : BufTy).Contents (Elt F)) (u : (⟨S1600000x64, .f32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst) u

variable (m : (ℓ : Loc nD τ sig) → Buf (Elt F) ℓ) (ρ : Dev nD → PrngReg)

/-! ## The first region's entry -/

set_option maxHeartbeats 4000000 in
theorem entry0_hr (c : Dev nD) :
    V1 m ρ c main_v6 = rowsAt (m ((c.tc : Thread nD τ).loc main_arg0)) (m ((c.tc : Thread nD τ).loc main_arg5)) := by
  show StableHlo.after hostOps0 (W0 m ρ c) (Proc.devRef .tc main_v6) = _
  after_results_simp
  rfl

set_option maxHeartbeats 4000000 in
theorem entry0_hi (c : Dev nD) :
    V1 m ρ c main_v13 = rowsAt (m ((c.tc : Thread nD τ).loc main_arg1)) (m ((c.tc : Thread nD τ).loc main_arg5)) := by
  show StableHlo.after hostOps0 (W0 m ρ c) (Proc.devRef .tc main_v13) = _
  after_results_simp
  rfl

set_option maxHeartbeats 4000000 in
theorem entry0_dd (c : Dev nD) :
    V1 m ρ c main_v29 = shapeCast S1600000x1 (mulf (numsAt (m ((c.tc : Thread nD τ).loc main_arg2)) (m ((c.tc : Thread nD τ).loc main_arg6)))
      (numsAt (m ((c.tc : Thread nD τ).loc main_arg2)) (m ((c.tc : Thread nD τ).loc main_arg5)))) shapeCasts_S1600000_S1600000x1 := by
  show StableHlo.after hostOps0 (W0 m ρ c) (Proc.devRef .tc main_v29) = _
  after_results_simp
  rfl

set_option maxHeartbeats 4000000 in
theorem entry0_wr (c : Dev nD) :
    V1 m ρ c main_v30 = shapeCast S1600000x1 (m ((c.tc : Thread nD τ).loc main_arg3)) shapeCasts_S1600000_S1600000x1 := by
  show StableHlo.after hostOps0 (W0 m ρ c) (Proc.devRef .tc main_v30) = _
  after_results_simp
  rfl

set_option maxHeartbeats 4000000 in
theorem entry0_wi (c : Dev nD) :
    V1 m ρ c main_v31 = shapeCast S1600000x1 (m ((c.tc : Thread nD τ).loc main_arg4)) shapeCasts_S1600000_S1600000x1 := by
  show StableHlo.after hostOps0 (W0 m ρ c) (Proc.devRef .tc main_v31) = _
  after_results_simp
  rfl

/-! ## An argument array at the first region's exit is as launched -/

set_option maxHeartbeats 4000000 in
theorem exit0_arg6 (c : Dev nD) : W2 m ρ c (Proc.devRef .tc main_arg6) = m ((c.tc : Thread nD τ).loc main_arg6) := by
  rw [W2_of_ne m ρ c main_arg6 (by decide)]
  show StableHlo.after hostOps0 (W0 m ρ c) (Proc.devRef .tc main_arg6) = _
  after_results_simp

set_option maxHeartbeats 4000000 in
theorem exit0_arg7 (c : Dev nD) : W2 m ρ c (Proc.devRef .tc main_arg7) = m ((c.tc : Thread nD τ).loc main_arg7) := by
  rw [W2_of_ne m ρ c main_arg7 (by decide)]
  show StableHlo.after hostOps0 (W0 m ρ c) (Proc.devRef .tc main_arg7) = _
  after_results_simp

set_option maxHeartbeats 4000000 in
theorem exit0_arg8 (c : Dev nD) : W2 m ρ c (Proc.devRef .tc main_arg8) = m ((c.tc : Thread nD τ).loc main_arg8) := by
  rw [W2_of_ne m ρ c main_arg8 (by decide)]
  show StableHlo.after hostOps0 (W0 m ρ c) (Proc.devRef .tc main_arg8) = _
  after_results_simp

set_option maxHeartbeats 4000000 in
theorem exit0_arg9 (c : Dev nD) : W2 m ρ c (Proc.devRef .tc main_arg9) = m ((c.tc : Thread nD τ).loc main_arg9) := by
  rw [W2_of_ne m ρ c main_arg9 (by decide)]
  show StableHlo.after hostOps0 (W0 m ρ c) (Proc.devRef .tc main_arg9) = _
  after_results_simp

set_option maxHeartbeats 4000000 in
theorem exit0_arg10 (c : Dev nD) : W2 m ρ c (Proc.devRef .tc main_arg10) = m ((c.tc : Thread nD τ).loc main_arg10) := by
  rw [W2_of_ne m ρ c main_arg10 (by decide)]
  show StableHlo.after hostOps0 (W0 m ρ c) (Proc.devRef .tc main_arg10) = _
  after_results_simp

/-- The first region's two output arrays at its exit. -/
theorem exit0_re (c : Dev nD) : W2 m ρ c (Proc.devRef .tc main_v32_0) = (dat0 (V1 m ρ) c).arrAt 5 cfg0.N := W2_arr m ρ c 5
theorem exit0_im (c : Dev nD) : W2 m ρ c (Proc.devRef .tc main_v32_1) = (dat0 (V1 m ρ) c).arrAt 6 cfg0.N := W2_arr m ρ c 6

/-! ## The second region's entry -/

theorem entry1_zr (c : Dev nD) :
    V3 m ρ c main_v35 = sumByDst (m ((c.tc : Thread nD τ).loc main_arg6)) ((dat0 (V1 m ρ) c).arrAt 5 cfg0.N) := by
  show StableHlo.after hostOps1 (W2 m ρ c) (Proc.devRef .tc main_v35) = _
  after_results
  rw [exit0_arg6, exit0_re]
  rfl

theorem entry1_zi (c : Dev nD) :
    V3 m ρ c main_v38 = sumByDst (m ((c.tc : Thread nD τ).loc main_arg6)) ((dat0 (V1 m ρ) c).arrAt 6 cfg0.N) := by
  show StableHlo.after hostOps1 (W2 m ρ c) (Proc.devRef .tc main_v38) = _
  after_results
  rw [exit0_arg6, exit0_im]
  rfl

theorem entry1_W1 (c : Dev nD) : V3 m ρ c main_arg7 = m ((c.tc : Thread nD τ).loc main_arg7) := by
  show StableHlo.after hostOps1 (W2 m ρ c) (Proc.devRef .tc main_arg7) = _
  after_results
  exact exit0_arg7 m ρ c

theorem entry1_W2 (c : Dev nD) : V3 m ρ c main_arg9 = m ((c.tc : Thread nD τ).loc main_arg9) := by
  show StableHlo.after hostOps1 (W2 m ρ c) (Proc.devRef .tc main_arg9) = _
  after_results
  exact exit0_arg9 m ρ c

theorem entry1_b1 (c : Dev nD) :
    V3 m ρ c main_v39 = shapeCast S1x64 (m ((c.tc : Thread nD τ).loc main_arg8)) shapeCasts_S64_S1x64 := by
  show StableHlo.after hostOps1 (W2 m ρ c) (Proc.devRef .tc main_v39) = _
  after_results
  rw [exit0_arg8]
  rfl

theorem entry1_b2 (c : Dev nD) :
    V3 m ρ c main_v40 = shapeCast S1x64 (m ((c.tc : Thread nD τ).loc main_arg10)) shapeCasts_S64_S1x64 := by
  show StableHlo.after hostOps1 (W2 m ρ c) (Proc.devRef .tc main_v40) = _
  after_results
  rw [exit0_arg10]
  rfl

/-- The two results at the last boundary are the second region's output arrays. -/
theorem result_re (c : Dev nD) : W4 m ρ c (Proc.devRef .tc main_v41_0) = (dat1 (V3 m ρ) c).arrAt 6 cfg1.N := W4_arr m ρ c 6
theorem result_im (c : Dev nD) : W4 m ρ c (Proc.devRef .tc main_v41_1) = (dat1 (V3 m ρ) c).arrAt 7 cfg1.N := W4_arr m ρ c 7

end Cert.KernelIdeal.Stretch

end
-- ==== Proof.Spec.lean ====
/-
  The two results as functions of the argument arrays, index by index, over the extended reals.

  For an edge e with endpoints src(e), dst(e) the complex coefficient is c(e) = (d[dst e] · d[src e]) · (w_re(e) + i·w_im(e)),
  and the message along e is the complex product c(e) · h[src e]: its real part is
  (dd·w_re)·h_re − (dd·w_im)·h_im and its imaginary part (dd·w_im)·h_re + (dd·w_re)·h_im, entry by entry over the
  64 features (`msgRe`, `msgIm`; dd = d[dst]·d[src] one number per edge). The messages are summed per destination
  node (a scatter-add, carried as one opaque function on both sides), giving z_re, z_im.
  An affine map row by row, `lin z W b` = z·Wᵀ + b: entry (n, j) is Σ_k z(n,k)·W(j,k) + b(j). The node update is
  out_re = lin z_re W1 b1 − lin z_im W2 b2 and out_im = lin out_re W2 b2 + lin z_im W1 b1.

  The same functions are written twice over two layouts of the one-number-per-edge and one-number-per-feature
  operands: as vectors (`msgRe`, `lin`) and as columns [E,1] and rows [1,64] (`msgReCol`, `linRow`); `*_col` and
  `*_row` say the two agree when the column or row is the vector reshaped.
-/
import Idealize.ShloMosaic.PureOps.Ideal
import Idealize.ShloMosaic.Lib.ValueIdx

noncomputable section

open scoped BigOperators

namespace Cert.Spec

open Idealize.ShloMosaic Idealize.ShloMosaic.ValueIdx

/-- A matrix and a vector of extended reals over literal extents. -/
abbrev Mat (a b : Nat) : Type := (⟨2, ![a, b]⟩ : Shape).Idx → EReal
abbrev Vct (a : Nat) : Type := (⟨1, ![a]⟩ : Shape).Idx → EReal

/-- The row and the column of a matrix index, as numbers below the extents. -/
abbrev row {a b : Nat} (i : (⟨2, ![a, b]⟩ : Shape).Idx) : Fin a := ⟨(i 0).val, idx2_lt0 i⟩
abbrev col {a b : Nat} (i : (⟨2, ![a, b]⟩ : Shape).Idx) : Fin b := ⟨(i 1).val, idx2_lt1 i⟩

theorem ix2_row_col {a b : Nat} (i : (⟨2, ![a, b]⟩ : Shape).Idx) : ix2 (row i) (col i) = i := by
  funext d; match d with
  | ⟨0, _⟩ => rfl
  | ⟨1, _⟩ => rfl

theorem row_ix2 {a b : Nat} (p : Fin a) (q : Fin b) : row (ix2 p q) = p := rfl
theorem col_ix2 {a b : Nat} (p : Fin a) (q : Fin b) : col (ix2 p q) = q := rfl

/-! ## The per-edge complex message -/

/-- Real part of (dd·(w_re + i·w_im))·(h_re + i·h_im), per edge and feature; dd, w_re, w_im one number per edge. -/
def msgRe {E D : Nat} (hr hi : Mat E D) (dd wr wi : Vct E) : Mat E D :=
  fun i => (dd (ix1 (row i)) * wr (ix1 (row i))) * hr i - (dd (ix1 (row i)) * wi (ix1 (row i))) * hi i

/-- Imaginary part of the same product. -/
def msgIm {E D : Nat} (hr hi : Mat E D) (dd wr wi : Vct E) : Mat E D :=
  fun i => (dd (ix1 (row i)) * wi (ix1 (row i))) * hr i + (dd (ix1 (row i)) * wr (ix1 (row i))) * hi i

/-- The same with the per-edge numbers held as columns [E, 1]. -/
def msgReCol {E D : Nat} (hr hi : Mat E D) (dd wr wi : Mat E 1) : Mat E D :=
  fun i => (dd (ix2 (row i) 0) * wr (ix2 (row i) 0)) * hr i - (dd (ix2 (row i) 0) * wi (ix2 (row i) 0)) * hi i

def msgImCol {E D : Nat} (hr hi : Mat E D) (dd wr wi : Mat E 1) : Mat E D :=
  fun i => (dd (ix2 (row i) 0) * wi (ix2 (row i) 0)) * hr i + (dd (ix2 (row i) 0) * wr (ix2 (row i) 0)) * hi i

theorem msgReCol_of {E D : Nat} (hr hi : Mat E D) (dd wr wi : Vct E) (dd' wr' wi' : Mat E 1)
    (hd : ∀ e : Fin E, dd' (ix2 e 0) = dd (ix1 e)) (hw : ∀ e : Fin E, wr' (ix2 e 0) = wr (ix1 e))
    (hv : ∀ e : Fin E, wi' (ix2 e 0) = wi (ix1 e)) :
    msgReCol hr hi dd' wr' wi' = msgRe hr hi dd wr wi := by
  funext i; simp only [msgReCol, msgRe, hd, hw, hv]

theorem msgImCol_of {E D : Nat} (hr hi : Mat E D) (dd wr wi : Vct E) (dd' wr' wi' : Mat E 1)
    (hd : ∀ e : Fin E, dd' (ix2 e 0) = dd (ix1 e)) (hw : ∀ e : Fin E, wr' (ix2 e 0) = wr (ix1 e))
    (hv : ∀ e : Fin E, wi' (ix2 e 0) = wi (ix1 e)) :
    msgImCol hr hi dd' wr' wi' = msgIm hr hi dd wr wi := by
  funext i; simp only [msgImCol, msgIm, hd, hw, hv]

/-! ## The node update -/

/-- z·Wᵀ + b, row by row: entry (n, j) is Σ_k z(n,k)·W(j,k) + b(j). -/
def lin {N D : Nat} (z : Mat N D) (W : Mat D D) (b : Vct D) : Mat N D :=
  fun i => (∑ k : Fin D, z (ix2 (row i) k) * W (ix2 (col i) k)) + b (ix1 (col i))

/-- The same with the bias held as a row [1, D]. -/
def linRow {N D : Nat} (z : Mat N D) (W : Mat D D) (b : Mat 1 D) : Mat N D :=
  fun i => (∑ k : Fin D, z (ix2 (row i) k) * W (ix2 (col i) k)) + b (ix2 0 (col i))

theorem linRow_of {N D : Nat} (z : Mat N D) (W : Mat D D) (b : Vct D) (b' : Mat 1 D)
    (hb : ∀ j : Fin D, b' (ix2 0 j) = b (ix1 j)) : linRow z W b' = lin z W b := by
  funext i; simp only [linRow, lin, hb]

/-- Real part of the update: (z_re·W1ᵀ + b1) − (z_im·W2ᵀ + b2). -/
def mixRe {N D : Nat} (zr zi : Mat N D) (W1 : Mat D D) (b1 : Vct D) (W2 : Mat D D) (b2 : Vct D) : Mat N D :=
  fun i => lin zr W1 b1 i - lin zi W2 b2 i

/-- Imaginary part: (out_re·W2ᵀ + b2) + (z_im·W1ᵀ + b1), out_re the real part just computed. -/
def mixIm {N D : Nat} (zr zi : Mat N D) (W1 : Mat D D) (b1 : Vct D) (W2 : Mat D D) (b2 : Vct D) : Mat N D :=
  fun i => lin (mixRe zr zi W1 b1 W2 b2) W2 b2 i + lin zi W1 b1 i

def mixReRow {N D : Nat} (zr zi : Mat N D) (W1 : Mat D D) (b1 : Mat 1 D) (W2 : Mat D D) (b2 : Mat 1 D) : Mat N D :=
  fun i => linRow zr W1 b1 i - linRow zi W2 b2 i

def mixImRow {N D : Nat} (zr zi : Mat N D) (W1 : Mat D D) (b1 : Mat 1 D) (W2 : Mat D D) (b2 : Mat 1 D) : Mat N D :=
  fun i => linRow (mixReRow zr zi W1 b1 W2 b2) W2 b2 i + linRow zi W1 b1 i

theorem mixReRow_of {N D : Nat} (zr zi : Mat N D) (W1 W2 : Mat D D) (b1 b2 : Vct D) (b1' b2' : Mat 1 D)
    (h1 : ∀ j : Fin D, b1' (ix2 0 j) = b1 (ix1 j)) (h2 : ∀ j : Fin D, b2' (ix2 0 j) = b2 (ix1 j)) :
    mixReRow zr zi W1 b1' W2 b2' = mixRe zr zi W1 b1 W2 b2 := by
  funext i; simp only [mixReRow, mixRe, linRow_of _ _ b1 b1' h1, linRow_of _ _ b2 b2' h2]

theorem mixImRow_of {N D : Nat} (zr zi : Mat N D) (W1 W2 : Mat D D) (b1 b2 : Vct D) (b1' b2' : Mat 1 D)
    (h1 : ∀ j : Fin D, b1' (ix2 0 j) = b1 (ix1 j)) (h2 : ∀ j : Fin D, b2' (ix2 0 j) = b2 (ix1 j)) :
    mixImRow zr zi W1 b1' W2 b2' = mixIm zr zi W1 b1 W2 b2 := by
  funext i
  simp only [mixImRow, mixIm, mixReRow_of zr zi W1 W2 b1 b2 b1' b2' h1 h2, linRow_of _ _ b1 b1' h1, linRow_of _ _ b2 b2' h2]

end Cert.Spec

end
-- ==== Proof.Edge.lean ====
/-
  The first kernel region: what its two output arrays hold when it ends, as whole-array functions of the arrays it is
  entered with.

  The region walks the 1,600,000 edges in 200 blocks of 8000 rows. At a block it reads rows [8000·t, 8000·t + 8000)
  of h_re[src], h_im[src] (64 features each) and of the three per-edge columns dd, w_re, w_im, forms the
  coefficient columns dd·w_re and dd·w_im, spreads each along the 64 features, and stores the real and imaginary
  parts of the complex product. Entry (e, j) of a stored block depends only on row e of the operands, so block t of
  the output is block t of one function of the whole arrays (`Spec.msgReCol`, `Spec.msgImCol`), and the 200 blocks
  tile the output: the arrays end at those functions.
-/
import proofs.«132785_j67585605369883_1_alg».proof.Proof.Gen.KernelIdeal.Frame
import proofs.«132785_j67585605369883_1_alg».proof.Proof.Spec
import Idealize.ShloMosaic.Lib.Pipeline.Value
import Idealize.ShloMosaic.Lib.ValueIdx

set_option maxRecDepth 16384

noncomputable section

namespace Cert.KernelIdeal.Edge

open Cert.KernelIdeal Cert.KernelIdeal.Gen
open Idealize.ShloMosaic Idealize.ShloMosaic.TcCoe Idealize.ShloMosaic.ValueIdx Idealize.SL.Sem
open Idealize.ShloMosaic.Pipeline (Dat)
open Cert.Spec

theorem hz : (![0, 0] : Fin 2 → Nat) = fun _ => 0 := funext fun a => by fin_cases a <;> rfl

/-! ## The body's arithmetic at an entry -/

/-- A column [8000, 1] spread along the 64 features reads its row. -/
theorem spread_col (v : FVec Ideal S8000x1 .f32) (p : Fin 8000) (q : Fin 64) :
    broadcastTo S8000x64 v broadcasts_S8000x1_S8000x64 (ix2 p q) = v (ix2 p 0) :=
  broadcastTo_apply v broadcasts_S8000x1_S8000x64 (ix2 p q) (ix2 p 0) (fun a => match a with
    | ⟨0, _⟩ => by show p.val = if (8000 : Nat) = 1 then 0 else p.val; rw [if_neg (by decide)]
    | ⟨1, _⟩ => by show 0 = if (1 : Nat) = 1 then 0 else q.val; rw [if_pos rfl])

/-- The real part stored at (p, q): (dd·w_re)(p)·h_re(p,q) − (dd·w_im)(p)·h_im(p,q). -/
theorem payRe_apply (x0 x1 : Vec Ideal S8000x64 .f32) (x2 x3 x4 : Vec Ideal S8000x1 .f32) (p : Fin 8000) (q : Fin 64) :
    k0_pay5 x0 x1 x2 x3 x2 x4 (ix2 p q)
      = (x2 (ix2 p 0) * x3 (ix2 p 0)) * x0 (ix2 p q) - (x2 (ix2 p 0) * x4 (ix2 p 0)) * x1 (ix2 p q) := by
  unfold k0_pay5 k0_pay3 k0_pay4 k0_pay1 k0_pay2
  simp only [shapeCast_self]
  rw [subf_apply, mulf_apply, mulf_apply, spread_col, spread_col, mulf_apply, mulf_apply]

/-- The imaginary part stored at (p, q): (dd·w_im)(p)·h_re(p,q) + (dd·w_re)(p)·h_im(p,q). -/
theorem payIm_apply (x0 x1 : Vec Ideal S8000x64 .f32) (x2 x3 x4 : Vec Ideal S8000x1 .f32) (p : Fin 8000) (q : Fin 64) :
    k0_pay6 x0 x1 x2 x3 x2 x4 (ix2 p q)
      = (x2 (ix2 p 0) * x4 (ix2 p 0)) * x0 (ix2 p q) + (x2 (ix2 p 0) * x3 (ix2 p 0)) * x1 (ix2 p q) := by
  unfold k0_pay6 k0_pay3 k0_pay4 k0_pay1 k0_pay2
  simp only [shapeCast_self]
  rw [addf_apply, mulf_apply, mulf_apply, spread_col, spread_col, mulf_apply, mulf_apply]

/-! ## Which rows a block holds -/

/-- The printed index maps, decided over the 200 grid points: every window's block at point t is block row t,
    block column 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## A stored entry, through the whole arrays -/

/-- If the loaded blocks are rows [8000·tv, 8000·tv + 8000) of the whole arrays, the real part stored at block entry
    j is the whole-array function at the array entry i that j lands on. -/
theorem entryRe (hr hi : Mat 1600000 64) (dd wr wi : Mat 1600000 1) (x0 x1 : Vec Ideal S8000x64 .f32)
    (x2 x3 x4 : Vec Ideal S8000x1 .f32) (tv : Nat)
    (h0 : ∀ (y : S8000x64.Idx) (k : S1600000x64.Idx), (k 0).val = tv * 8000 + (y 0).val → (k 1).val = (y 1).val → x0 y = hr k)
    (h1 : ∀ (y : S8000x64.Idx) (k : S1600000x64.Idx), (k 0).val = tv * 8000 + (y 0).val → (k 1).val = (y 1).val → x1 y = hi k)
    (h2 : ∀ (y : S8000x1.Idx) (k : S1600000x1.Idx), (k 0).val = tv * 8000 + (y 0).val → x2 y = dd k)
    (h3 : ∀ (y : S8000x1.Idx) (k : S1600000x1.Idx), (k 0).val = tv * 8000 + (y 0).val → x3 y = wr k)
    (h4 : ∀ (y : S8000x1.Idx) (k : S1600000x1.Idx), (k 0).val = tv * 8000 + (y 0).val → x4 y = wi k)
    (j : S8000x64.Idx) (i : S1600000x64.Idx) (hi0 : (i 0).val = tv * 8000 + (j 0).val) (hi1 : (i 1).val = (j 1).val) :
    k0_pay5 x0 x1 x2 x3 x2 x4 j = msgReCol hr hi dd wr wi i := by
  obtain ⟨p, q, rfl⟩ : ∃ (p : Fin 8000) (q : Fin 64), j = ix2 p q := ⟨j 0, j 1, eq_ix2 j⟩
  rw [payRe_apply]
  unfold msgReCol
  rw [h0 (ix2 p q) i hi0 hi1, h1 (ix2 p q) i hi0 hi1, h2 (ix2 p 0) (ix2 (row i) 0) hi0, h3 (ix2 p 0) (ix2 (row i) 0) hi0,
    h4 (ix2 p 0) (ix2 (row i) 0) hi0]

/-- The same for the imaginary part. -/
theorem entryIm (hr hi : Mat 1600000 64) (dd wr wi : Mat 1600000 1) (x0 x1 : Vec Ideal S8000x64 .f32)
    (x2 x3 x4 : Vec Ideal S8000x1 .f32) (tv : Nat)
    (h0 : ∀ (y : S8000x64.Idx) (k : S1600000x64.Idx), (k 0).val = tv * 8000 + (y 0).val → (k 1).val = (y 1).val → x0 y = hr k)
    (h1 : ∀ (y : S8000x64.Idx) (k : S1600000x64.Idx), (k 0).val = tv * 8000 + (y 0).val → (k 1).val = (y 1).val → x1 y = hi k)
    (h2 : ∀ (y : S8000x1.Idx) (k : S1600000x1.Idx), (k 0).val = tv * 8000 + (y 0).val → x2 y = dd k)
    (h3 : ∀ (y : S8000x1.Idx) (k : S1600000x1.Idx), (k 0).val = tv * 8000 + (y 0).val → x3 y = wr k)
    (h4 : ∀ (y : S8000x1.Idx) (k : S1600000x1.Idx), (k 0).val = tv * 8000 + (y 0).val → x4 y = wi k)
    (j : S8000x64.Idx) (i : S1600000x64.Idx) (hi0 : (i 0).val = tv * 8000 + (j 0).val) (hi1 : (i 1).val = (j 1).val) :
    k0_pay6 x0 x1 x2 x3 x2 x4 j = msgImCol hr hi dd wr wi i := by
  obtain ⟨p, q, rfl⟩ : ∃ (p : Fin 8000) (q : Fin 64), j = ix2 p q := ⟨j 0, j 1, eq_ix2 j⟩
  rw [payIm_apply]
  unfold msgImCol
  rw [h0 (ix2 p q) i hi0 hi1, h1 (ix2 p q) i hi0 hi1, h2 (ix2 p 0) (ix2 (row i) 0) hi0, h3 (ix2 p 0) (ix2 (row i) 0) hi0,
    h4 (ix2 p 0) (ix2 (row i) 0) hi0]

/-! ## The input blocks are rows of the entry arrays -/

variable (V : (c : Dev nD) → (b : Ref sig .tc) → Buf (Elt Ideal) ((c : Thread nD τ).loc b))

theorem blk0 (c : Dev nD) (t : Fin cfg0.N) (y : S8000x64.Idx) (k : S1600000x64.Idx)
    (hk0 : (k 0).val = t.val * 8000 + (y 0).val) (hk1 : (k 1).val = (y 1).val) :
    (iblk0 V c 0 t : Vec Ideal S8000x64 .f32) y = (V c main_v6 : S1600000x64.Idx → EReal) k := by
  obtain ⟨a0, a1, -⟩ := idx_facts t
  unfold iblk0
  rw [View.read_apply]
  show V c main_v6 _ = V c main_v6 _
  congr 1
  funext a
  apply Fin.ext
  match a with
  | ⟨0, _⟩ => show win0_0.index t 0 * 8000 + 1 * (y 0).val = (k 0).val; rw [a0, hk0]; omega
  | ⟨1, _⟩ => show win0_0.index t 1 * 64 + 1 * (y 1).val = (k 1).val; rw [a1, hk1]; omega

theorem blk1 (c : Dev nD) (t : Fin cfg0.N) (y : S8000x64.Idx) (k : S1600000x64.Idx)
    (hk0 : (k 0).val = t.val * 8000 + (y 0).val) (hk1 : (k 1).val = (y 1).val) :
    (iblk0 V c 1 t : Vec Ideal S8000x64 .f32) y = (V c main_v13 : S1600000x64.Idx → EReal) k := by
  obtain ⟨-, -, a0, a1, -⟩ := idx_facts t
  unfold iblk0
  rw [View.read_apply]
  show V c main_v13 _ = V c main_v13 _
  congr 1
  funext a
  apply Fin.ext
  match a with
  | ⟨0, _⟩ => show win0_1.index t 0 * 8000 + 1 * (y 0).val = (k 0).val; rw [a0, hk0]; omega
  | ⟨1, _⟩ => show win0_1.index t 1 * 64 + 1 * (y 1).val = (k 1).val; rw [a1, hk1]; omega

theorem blk2 (c : Dev nD) (t : Fin cfg0.N) (y : S8000x1.Idx) (k : S1600000x1.Idx)
    (hk0 : (k 0).val = t.val * 8000 + (y 0).val) :
    (iblk0 V c 2 t : Vec Ideal S8000x1 .f32) y = (V c main_v29 : S1600000x1.Idx → EReal) k := by
  obtain ⟨-, -, -, -, a0, a1, -⟩ := idx_facts t
  unfold iblk0
  rw [View.read_apply]
  show V c main_v29 _ = V c main_v29 _
  congr 1
  funext a
  apply Fin.ext
  have hy : (y 1).val < 1 := (y 1).isLt
  have hk : (k 1).val < 1 := (k 1).isLt
  match a with
  | ⟨0, _⟩ => show win0_2.index t 0 * 8000 + 1 * (y 0).val = (k 0).val; rw [a0, hk0]; omega
  | ⟨1, _⟩ => show win0_2.index t 1 * 1 + 1 * (y 1).val = (k 1).val; rw [a1]; omega

theorem blk3 (c : Dev nD) (t : Fin cfg0.N) (y : S8000x1.Idx) (k : S1600000x1.Idx)
    (hk0 : (k 0).val = t.val * 8000 + (y 0).val) :
    (iblk0 V c 3 t : Vec Ideal S8000x1 .f32) y = (V c main_v30 : S1600000x1.Idx → EReal) k := by
  obtain ⟨-, -, -, -, -, -, a0, a1, -⟩ := idx_facts t
  unfold iblk0
  rw [View.read_apply]
  show V c main_v30 _ = V c main_v30 _
  congr 1
  funext a
  apply Fin.ext
  have hy : (y 1).val < 1 := (y 1).isLt
  have hk : (k 1).val < 1 := (k 1).isLt
  match a with
  | ⟨0, _⟩ => show win0_3.index t 0 * 8000 + 1 * (y 0).val = (k 0).val; rw [a0, hk0]; omega
  | ⟨1, _⟩ => show win0_3.index t 1 * 1 + 1 * (y 1).val = (k 1).val; rw [a1]; omega

theorem blk4 (c : Dev nD) (t : Fin cfg0.N) (y : S8000x1.Idx) (k : S1600000x1.Idx)
    (hk0 : (k 0).val = t.val * 8000 + (y 0).val) :
    (iblk0 V c 4 t : Vec Ideal S8000x1 .f32) y = (V c main_v31 : S1600000x1.Idx → EReal) k := by
  obtain ⟨-, -, -, -, -, -, -, -, a0, a1, -⟩ := idx_facts t
  unfold iblk0
  rw [View.read_apply]
  show V c main_v31 _ = V c main_v31 _
  congr 1
  funext a
  apply Fin.ext
  have hy : (y 1).val < 1 := (y 1).isLt
  have hk : (k 1).val < 1 := (k 1).isLt
  match a with
  | ⟨0, _⟩ => show win0_4.index t 0 * 8000 + 1 * (y 0).val = (k 0).val; rw [a0, hk0]; omega
  | ⟨1, _⟩ => show win0_4.index t 1 * 1 + 1 * (y 1).val = (k 1).val; rw [a1]; omega

/-! ## What a point writes back, and the arrays at the end -/

/-- Point t writes back block t of the real-part function of the entry arrays. -/
theorem flushedRe (c : Dev nD) (t : Fin cfg0.N) :
    (dat0 V c).flushed 5 t = ((cfg0.win 5).blk t).view.read (Elt Ideal)
      (msgReCol (V c main_v6) (V c main_v13) (V c main_v29) (V c main_v30) (V c main_v31)) := by
  show (cfg0.win 5).cut (grid0.coords t) ((dat0 V c).after 5 t) = _
  rw [after0_5]
  unfold out0_5
  rw [View.canon_unit_zero hz]
  simp only [View.ld_unit_zero (S := S8000x64) hz, View.ld_unit_zero (S := S8000x1) hz]
  obtain ⟨-, -, -, -, -, -, -, -, -, -, f0, f1, -⟩ := idx_facts t
  funext j
  refine entryRe (V c main_v6) (V c main_v13) (V c main_v29) (V c main_v30) (V c main_v31)
    (iblk0 V c 0 t) (iblk0 V c 1 t) (iblk0 V c 2 t) (iblk0 V c 3 t) (iblk0 V c 4 t) t.val
    (blk0 V c t) (blk1 V c t) (blk2 V c t) (blk3 V c t) (blk4 V c t) j (((cfg0.win 5).blk t).view.emb j) ?_ ?_
  · show win0_5.index t 0 * 8000 + 1 * (j 0).val = t.val * 8000 + (j 0).val; rw [f0]; omega
  · show win0_5.index t 1 * 64 + 1 * (j 1).val = (j 1).val; rw [f1]; omega

/-- Point t writes back block t of the imaginary-part function of the entry arrays. -/
theorem flushedIm (c : Dev nD) (t : Fin cfg0.N) :
    (dat0 V c).flushed 6 t = ((cfg0.win 6).blk t).view.read (Elt Ideal)
      (msgImCol (V c main_v6) (V c main_v13) (V c main_v29) (V c main_v30) (V c main_v31)) := by
  show (cfg0.win 6).cut (grid0.coords t) ((dat0 V c).after 6 t) = _
  rw [after0_6]
  unfold out0_6
  rw [View.canon_unit_zero hz]
  simp only [View.ld_unit_zero (S := S8000x64) hz, View.ld_unit_zero (S := S8000x1) hz]
  obtain ⟨-, -, -, -, -, -, -, -, -, -, -, -, g0, g1⟩ := idx_facts t
  funext j
  refine entryIm (V c main_v6) (V c main_v13) (V c main_v29) (V c main_v30) (V c main_v31)
    (iblk0 V c 0 t) (iblk0 V c 1 t) (iblk0 V c 2 t) (iblk0 V c 3 t) (iblk0 V c 4 t) t.val
    (blk0 V c t) (blk1 V c t) (blk2 V c t) (blk3 V c t) (blk4 V c t) j (((cfg0.win 6).blk t).view.emb j) ?_ ?_
  · show win0_6.index t 0 * 8000 + 1 * (j 0).val = t.val * 8000 + (j 0).val; rw [g0]; omega
  · show win0_6.index t 1 * 64 + 1 * (j 1).val = (j 1).val; rw [g1]; omega

/-- An index of a message array is in point t's block of window 5 iff its row is in [8000·t, 8000·t + 8000). -/
theorem mem_blk5 (t : Fin cfg0.N) (i : S1600000x64.Idx) :
    i ∈ ((cfg0.win 5).blk t).view.set ↔ ∀ a : Fin 2, win0_5.index t a * S8000x64.size a ≤ (i a).val ∧ (i a).val < win0_5.index t a * S8000x64.size a + S8000x64.size a := by
  show i ∈ ((View.whole main_v32_0).slice (win0_5.rect t)).set ↔ _
  rw [View.set_slice_whole, Rect.mem_set_unit]
  exact Iff.rfl

theorem mem_blk6 (t : Fin cfg0.N) (i : S1600000x64.Idx) :
    i ∈ ((cfg0.win 6).blk t).view.set ↔ ∀ a : Fin 2, win0_6.index t a * S8000x64.size a ≤ (i a).val ∧ (i a).val < win0_6.index t a * S8000x64.size a + S8000x64.size a := by
  show i ∈ ((View.whole main_v32_1).slice (win0_6.rect t)).set ↔ _
  rw [View.set_slice_whole, Rect.mem_set_unit]
  exact Iff.rfl

/-- Every row is in the block of the point row / 8000. -/
theorem cover5 (i : S1600000x64.Idx) : ∃ t : Fin cfg0.N, (cfg0.win 5).flush t = true ∧ i ∈ ((cfg0.win 5).blk t).view.set := by
  have hi0 : (i 0).val < 1600000 := (i 0).isLt
  have hi1 : (i 1).val < 64 := (i 1).isLt
  let t : Fin cfg0.N := ⟨(i 0).val / 8000, by show (i 0).val / 8000 < 200; omega⟩
  obtain ⟨-, -, -, -, -, -, -, -, -, -, f0, f1, -⟩ := idx_facts t
  refine ⟨t, flush0_5 t, ?_⟩
  rw [mem_blk5]
  intro a
  have ht : t.val = (i 0).val / 8000 := rfl
  match a with
  | ⟨0, _⟩ => show win0_5.index t 0 * 8000 ≤ (i 0).val ∧ (i 0).val < win0_5.index t 0 * 8000 + 8000; rw [f0, ht]; omega
  | ⟨1, _⟩ => show win0_5.index t 1 * 64 ≤ (i 1).val ∧ (i 1).val < win0_5.index t 1 * 64 + 64; rw [f1]; omega

theorem cover6 (i : S1600000x64.Idx) : ∃ t : Fin cfg0.N, (cfg0.win 6).flush t = true ∧ i ∈ ((cfg0.win 6).blk t).view.set := by
  have hi0 : (i 0).val < 1600000 := (i 0).isLt
  have hi1 : (i 1).val < 64 := (i 1).isLt
  let t : Fin cfg0.N := ⟨(i 0).val / 8000, by show (i 0).val / 8000 < 200; omega⟩
  obtain ⟨-, -, -, -, -, -, -, -, -, -, -, -, g0, g1⟩ := idx_facts t
  refine ⟨t, flush0_6 t, ?_⟩
  rw [mem_blk6]
  intro a
  have ht : t.val = (i 0).val / 8000 := rfl
  match a with
  | ⟨0, _⟩ => show win0_6.index t 0 * 8000 ≤ (i 0).val ∧ (i 0).val < win0_6.index t 0 * 8000 + 8000; rw [g0, ht]; omega
  | ⟨1, _⟩ => show win0_6.index t 1 * 64 ≤ (i 1).val ∧ (i 1).val < win0_6.index t 1 * 64 + 64; rw [g1]; omega

/-- The real-part message array when the region ends. -/
theorem finalRe (c : Dev nD) :
    (dat0 V c).arrAt 5 cfg0.N = msgReCol (V c main_v6) (V c main_v13) (V c main_v29) (V c main_v30) (V c main_v31) :=
  (dat0 V c).arrAt_eq_of_cover 5 _ (fun t _ => flushedRe V c t) cover5

/-- The imaginary-part message array when the region ends. -/
theorem finalIm (c : Dev nD) :
    (dat0 V c).arrAt 6 cfg0.N = msgImCol (V c main_v6) (V c main_v13) (V c main_v29) (V c main_v30) (V c main_v31) :=
  (dat0 V c).arrAt_eq_of_cover 6 _ (fun t _ => flushedIm V c t) cover6

end Cert.KernelIdeal.Edge

end
-- ==== Proof.LibOuterDot.lean ====
/-
  Two readings at an index, for any sizes, at the ideal values.

  * A block u of shape [R, n] and a block x of shape [R, m], each given a unit axis, broadcast against each other to
    [R, n, m], multiplied and flattened to [R, n·m]: entry (p, k) is u(p, k / m) · x(p, k % m) — the row-wise
    Kronecker product.
  * A matrix product [M, K] × [K, N] into a zero accumulator: entry (p, q) is Σ over k < K of A(p, k) · B(k, q), a sum
    over Fin K, given where the dimension numbers send an output index and a contraction index.
-/
import Idealize.ShloMosaic.Lib.ValueIdx
import Idealize.ShloMosaic.Lib.Pipeline.Value
import Idealize.ShloMosaic.PureOps.Ideal.Laws

noncomputable section

open scoped BigOperators

namespace Cert.LibOuterDot

open Idealize.ShloMosaic Idealize.ShloMosaic.ValueIdx

/-- The row-wise Kronecker product read at (p, k): u at column k / m times x at column k % m. -/
theorem outer_flat_apply (R n m N : ℕ) (hn : 1 < n) (hm : 1 < m) (hN : N = n * m)
    (u : (⟨2, ![R, n]⟩ : Shape).Idx → EReal) (x : (⟨2, ![R, m]⟩ : Shape).Idx → EReal)
    (h1 : (⟨2, ![R, n]⟩ : Shape).ShapeCasts ⟨3, ![R, n, 1]⟩)
    (h2 : (⟨2, ![R, m]⟩ : Shape).ShapeCasts ⟨3, ![R, 1, m]⟩)
    (h3 : (⟨3, ![R, n, 1]⟩ : Shape).Broadcasts ⟨3, ![R, n, m]⟩)
    (h4 : (⟨3, ![R, 1, m]⟩ : Shape).Broadcasts ⟨3, ![R, n, m]⟩)
    (h5 : (⟨3, ![R, n, m]⟩ : Shape).ShapeCasts ⟨2, ![R, N]⟩)
    (p : Fin R) (k : Fin N) (a : Fin n) (b : Fin m) (ha : a.val = k.val / m) (hb : b.val = k.val % m) :
    shapeCast ⟨2, ![R, N]⟩ (mulf (F := Ideal) (φ := .f32)
        (broadcastTo ⟨3, ![R, n, m]⟩ (shapeCast ⟨3, ![R, n, 1]⟩ u h1) h3)
        (broadcastTo ⟨3, ![R, n, m]⟩ (shapeCast ⟨3, ![R, 1, m]⟩ x h2) h4)) h5 (ix2 p k)
      = u (ix2 p a) * x (ix2 p b) := by
  subst hN
  refine (shapeCast_apply _ h5 (ix2 p k) (ix3 p a b) ?_).trans ?_
  · rw [Shape.rowMajor_val_three, Shape.rowMajor_val_two]
    show (p.val * n + a.val) * m + b.val = p.val * (n * m) + k.val
    have e : k.val / m * m + k.val % m = k.val := Nat.div_add_mod' _ _
    rw [ha, hb, Nat.add_mul, Nat.mul_assoc, Nat.add_assoc, e]
  · rw [mulf_apply]
    congr 1
    · refine (broadcastTo_apply _ h3 (ix3 p a b) (ix3 p a (0 : Fin 1)) ?_).trans ?_
      · intro ax
        match ax with
        | ⟨0, _⟩ =>
          show p.val = if R = 1 then 0 else p.val
          split
          · have := p.isLt; omega
          · rfl
        | ⟨1, _⟩ =>
          show a.val = if n = 1 then 0 else a.val
          rw [if_neg (by omega)]
        | ⟨2, _⟩ => rfl
      · refine shapeCast_apply u h1 _ (ix2 p a) ?_
        rw [Shape.rowMajor_val_three, Shape.rowMajor_val_two]
        show p.val * n + a.val = (p.val * n + a.val) * 1 + 0
        omega
    · refine (broadcastTo_apply _ h4 (ix3 p a b) (ix3 p (0 : Fin 1) b) ?_).trans ?_
      · intro ax
        match ax with
        | ⟨0, _⟩ =>
          show p.val = if R = 1 then 0 else p.val
          split
          · have := p.isLt; omega
          · rfl
        | ⟨1, _⟩ => rfl
        | ⟨2, _⟩ =>
          show b.val = if m = 1 then 0 else b.val
          rw [if_neg (by omega)]
      · refine shapeCast_apply x h2 _ (ix2 p b) ?_
        rw [Shape.rowMajor_val_three, Shape.rowMajor_val_two]
        show p.val * m + b.val = (p.val * 1 + 0) * m + b.val
        rw [Nat.mul_one, Nat.add_zero]

/-- With no batch axes and one free axis a on the left, the left operand's index has the output's coordinate b there,
    b the first output axis. -/
theorem lhs_free_val {sl sr so : Shape} (d : DotDims sl sr so) (a : Fin sl.rank) (b : Fin so.rank)
    (hlb : d.lhsBatch = []) (hln : d.lhsNonContracting = [a]) (hb : b.val = 0) (j : so.Idx) (k : d.contr.Idx) :
    (d.lhsIdx j k a).val = (j b).val := by
  have hnb : a ∉ d.lhsBatch := by rw [hlb]; exact List.not_mem_nil
  have hmn : a ∈ d.lhsNonContracting := by rw [hln]; exact List.mem_singleton.mpr rfl
  unfold DotDims.lhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hb])

/-- With no batch axes, one free axis on the left and one free axis a on the right, the right operand's index has the
    output's coordinate b there, b the second output axis. -/
theorem rhs_free_val {sl sr so : Shape} (d : DotDims sl sr so) (a : Fin sr.rank) (b : Fin so.rank) (a' : Fin sl.rank)
    (hlb : d.lhsBatch = []) (hrb : d.rhsBatch = []) (hln : d.lhsNonContracting = [a']) (hrn : d.rhsNonContracting = [a])
    (hb : b.val = 1) (j : so.Idx) (k : d.contr.Idx) :
    (d.rhsIdx j k a).val = (j b).val := by
  have hnb : a ∉ d.rhsBatch := by rw [hrb]; exact List.not_mem_nil
  have hmn : a ∈ d.rhsNonContracting := by rw [hrn]; exact List.mem_singleton.mpr rfl
  unfold DotDims.rhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hrn, hb])

/-- A matrix product into the zero accumulator read at (p, q), given where the dimension numbers send the indices:
    the sum over k < K of A(p, k) · B(k, q). -/
theorem matmul_zero_ix2_of {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-- A plain matrix product — left operand contracted on its second axis, right on its first, no batch axes — into
    the zero accumulator, read at (p, q): the sum over k < K of A(p, k) · B(k, q). -/
theorem matmul_zero_ix2 {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) :=
  matmul_zero_ix2_of d hr hs
    (fun i q => lhs_free_val d 0 0 hlb hln rfl i q)
    (fun i q => d.lhsIdx_val_of_single hlc i q)
    (fun i q => d.rhsIdx_val_of_single hrc i q)
    (fun i q => rhs_free_val d 1 1 0 hlb hrb hln hrn rfl i q)
    prec A B p q

end Cert.LibOuterDot

end
-- ==== Proof.Mix.lean ====
/-
  The second kernel region: what its two output arrays hold when it ends, as whole-array functions of the arrays it is
  entered with.

  The region walks the 100,000 nodes in 100 blocks of 1000 rows; the two weight matrices and the two bias rows are
  whole at every point. At a block it forms out_re = (z_re·W1ᵀ + b1) − (z_im·W2ᵀ + b2) and
  out_im = (out_re·W2ᵀ + b2) + (z_im·W1ᵀ + b1): four matrix products into zero accumulators (each entry a sum over the
  64 features; the narrowing of the operands to a 16-bit float format is the identity on extended reals), a bias row
  spread over the rows, and entrywise sums and differences. Row p of a block depends only on row 1000·t + p of
  z_re, z_im — also through out_re, whose row p is made from the same rows — so block t of each output is block t of
  one function of the whole arrays (`Spec.mixReRow`, `Spec.mixImRow`), and the 100 blocks tile the outputs.
-/
import proofs.«132785_j67585605369883_1_alg».proof.Proof.Gen.KernelIdeal.Frame
import proofs.«132785_j67585605369883_1_alg».proof.Proof.Spec
import proofs.«132785_j67585605369883_1_alg».proof.Proof.LibOuterDot
import Idealize.ShloMosaic.Lib.Pipeline.Value
import Idealize.ShloMosaic.Lib.ValueIdx

set_option maxRecDepth 16384

noncomputable section

open scoped BigOperators

namespace Cert.KernelIdeal.Mix

open Cert.KernelIdeal Cert.KernelIdeal.Gen
open Idealize.ShloMosaic Idealize.ShloMosaic.TcCoe Idealize.ShloMosaic.ValueIdx Idealize.SL.Sem
open Idealize.ShloMosaic.Pipeline (Dat)
open Cert.Spec

theorem hz : (![0, 0] : Fin 2 → Nat) = fun _ => 0 := funext fun a => by fin_cases a <;> rfl

/-! ## The body's arithmetic at an entry -/

/-- A bias row [1, 64] spread over the 1000 rows reads its column. -/
theorem spread_row (v : FVec Ideal S1x64 .f32) (p : Fin 1000) (q : Fin 64) :
    broadcastTo S1000x64 v broadcasts_S1x64_S1000x64 (ix2 p q) = v (ix2 0 q) :=
  broadcastTo_apply v broadcasts_S1x64_S1000x64 (ix2 p q) (ix2 0 q) (fun a => match a with
    | ⟨0, _⟩ => by show 0 = if (1 : Nat) = 1 then 0 else p.val; rw [if_pos rfl]
    | ⟨1, _⟩ => by show q.val = if (64 : Nat) = 1 then 0 else q.val; rw [if_neg (by decide)])

/-- The transposed weight matrix at (k, q) is the matrix at (q, k). -/
theorem transposed (w : FVec Ideal S64x64 .bf16) (k q : Fin 64) :
    transpose S64x64 [1, 0] w transposes_S64x64_p1_0_S64x64 (ix2 k q) = w (ix2 q k) :=
  transpose_apply [1, 0] w transposes_S64x64_p1_0_S64x64 (ix2 k q) (ix2 q k) (fun b => match b with
    | ⟨0, _⟩ => rfl
    | ⟨1, _⟩ => rfl)

/-- A block times a transposed weight matrix, into zeros, at (p, q): Σ_k z(p,k)·W(q,k). -/
theorem prodT (z : FVec Ideal S1000x64 .bf16) (w : FVec Ideal S64x64 .bf16) (p : Fin 1000) (q : Fin 64) :
    matmul dot_S1000x64_S64x64_S1000x64_1_0_0_1_n_n none z (transpose S64x64 [1, 0] w transposes_S64x64_p1_0_S64x64)
        (constant S1000x64 .f32 0x00000000#32) (ix2 p q)
      = ∑ k : Fin 64, z (ix2 p k) * w (ix2 q k) := by
  rw [Cert.LibOuterDot.matmul_zero_ix2 dot_S1000x64_S64x64_S1000x64_1_0_0_1_n_n rfl rfl rfl rfl rfl rfl rfl rfl none z _ p q]
  exact Finset.sum_congr rfl fun k _ => by rw [transposed]

/-- One affine term of the body at (p, q): Σ_k z(p,k)·W(q,k) + b(0,q). -/
theorem affine_apply (z : FVec Ideal S1000x64 .bf16) (w : FVec Ideal S64x64 .bf16) (b : FVec Ideal S1x64 .f32) (p : Fin 1000) (q : Fin 64) :
    addf (matmul dot_S1000x64_S64x64_S1000x64_1_0_0_1_n_n none z (transpose S64x64 [1, 0] w transposes_S64x64_p1_0_S64x64)
        (constant S1000x64 .f32 0x00000000#32)) (broadcastTo S1000x64 b broadcasts_S1x64_S1000x64) (ix2 p q)
      = (∑ k : Fin 64, z (ix2 p k) * w (ix2 q k)) + b (ix2 0 q) := by
  rw [addf_apply, prodT, spread_row]

/-- The real part stored at (p, q). -/
theorem payRe_apply (v0 v3 : Vec Ideal S1000x64 .f32) (v6 v8 : Vec Ideal S64x64 .f32) (v10 v12 : Vec Ideal S1x64 .f32)
    (p : Fin 1000) (q : Fin 64) :
    k1_pay6 v0 v3 v6 v8 v10 v12 (ix2 p q)
      = ((∑ k : Fin 64, v0 (ix2 p k) * v6 (ix2 q k)) + v10 (ix2 0 q)) - ((∑ k : Fin 64, v3 (ix2 p k) * v8 (ix2 q k)) + v12 (ix2 0 q)) := by
  unfold k1_pay6 k1_pay1 k1_pay2 k1_pay3 k1_pay4 k1_pay5
  simp only [shapeCast_self]
  rw [subf_apply, affine_apply, affine_apply]
  rfl

/-- The imaginary part stored at (p, q), over the real part of the same block. -/
theorem payIm_apply (v0 v3 : Vec Ideal S1000x64 .f32) (v6 v8 : Vec Ideal S64x64 .f32) (v10 v12 : Vec Ideal S1x64 .f32)
    (p : Fin 1000) (q : Fin 64) :
    k1_pay7 v0 v3 v6 v8 v10 v12 (ix2 p q)
      = ((∑ k : Fin 64, k1_pay6 v0 v3 v6 v8 v10 v12 (ix2 p k) * v8 (ix2 q k)) + v12 (ix2 0 q))
        + ((∑ k : Fin 64, v3 (ix2 p k) * v6 (ix2 q k)) + v10 (ix2 0 q)) := by
  unfold k1_pay7 k1_pay1 k1_pay2 k1_pay3 k1_pay4 k1_pay5
  simp only [shapeCast_self]
  rw [addf_apply, affine_apply, affine_apply]
  rfl

/-! ## A stored entry, through the whole arrays -/

section Entries

variable (zr zi : Mat 100000 64) (W1 W2 : Mat 64 64) (b1 b2 : Mat 1 64)
variable (x0 x1 : Vec Ideal S1000x64 .f32) (x2 x4 : Vec Ideal S64x64 .f32) (x3 x5 : Vec Ideal S1x64 .f32) (tv : Nat)
variable (h0 : ∀ (y : S1000x64.Idx) (k : S100000x64.Idx), (k 0).val = tv * 1000 + (y 0).val → (k 1).val = (y 1).val → x0 y = zr k)
variable (h1 : ∀ (y : S1000x64.Idx) (k : S100000x64.Idx), (k 0).val = tv * 1000 + (y 0).val → (k 1).val = (y 1).val → x1 y = zi k)
variable (h2 : ∀ y : S64x64.Idx, x2 y = W1 y) (h4 : ∀ y : S64x64.Idx, x4 y = W2 y)
variable (h3 : ∀ y : S1x64.Idx, x3 y = b1 y) (h5 : ∀ y : S1x64.Idx, x5 y = b2 y)

include h0 h1 h2 h3 h4 h5 in
/-- If the loaded row blocks are rows [1000·tv, 1000·tv + 1000) of z_re, z_im and the other blocks are the whole
    weight matrices and bias rows, the real part stored at block entry j is the whole-array function at the array
    entry i that j lands on. -/
theorem entryRe (j : S1000x64.Idx) (i : S100000x64.Idx) (hi0 : (i 0).val = tv * 1000 + (j 0).val) (hi1 : (i 1).val = (j 1).val) :
    k1_pay6 x0 x1 x2 x4 x3 x5 j = mixReRow zr zi W1 b1 W2 b2 i := by
  obtain ⟨p, q, rfl⟩ : ∃ (p : Fin 1000) (q : Fin 64), j = ix2 p q := ⟨j 0, j 1, eq_ix2 j⟩
  have hq : (⟨q.val, q.isLt⟩ : Fin 64) = col i := Fin.ext hi1.symm
  have hq' : q = col i := Fin.ext hi1.symm
  rw [payRe_apply]
  unfold mixReRow linRow
  subst hq'
  congr 1
  · congr 1
    · exact Finset.sum_congr rfl fun k _ => by rw [h0 (ix2 p k) (ix2 (row i) k) hi0 rfl, h2]
    · exact h3 _
  · congr 1
    · exact Finset.sum_congr rfl fun k _ => by rw [h1 (ix2 p k) (ix2 (row i) k) hi0 rfl, h4]
    · exact h5 _

include h0 h1 h2 h3 h4 h5 in
/-- The same for the imaginary part; the real part it multiplies is the same block's, read by `entryRe` row by row. -/
theorem entryIm (j : S1000x64.Idx) (i : S100000x64.Idx) (hi0 : (i 0).val = tv * 1000 + (j 0).val) (hi1 : (i 1).val = (j 1).val) :
    k1_pay7 x0 x1 x2 x4 x3 x5 j = mixImRow zr zi W1 b1 W2 b2 i := by
  obtain ⟨p, q, rfl⟩ : ∃ (p : Fin 1000) (q : Fin 64), j = ix2 p q := ⟨j 0, j 1, eq_ix2 j⟩
  have hq' : q = col i := Fin.ext hi1.symm
  rw [payIm_apply]
  unfold mixImRow linRow
  subst hq'
  congr 1
  · congr 1
    · exact Finset.sum_congr rfl fun k _ => by
        rw [entryRe zr zi W1 W2 b1 b2 x0 x1 x2 x4 x3 x5 tv h0 h1 h2 h4 h3 h5 (ix2 p k) (ix2 (row i) k) hi0 rfl, h4]
    · exact h5 _
  · congr 1
    · exact Finset.sum_congr rfl fun k _ => by rw [h1 (ix2 p k) (ix2 (row i) k) hi0 rfl, h2]
    · exact h3 _

end Entries

/-! ## Which rows a block holds -/

/-- The printed index maps, decided over the 100 grid points: the row-blocked windows are at block row t, the
    weight matrices and bias rows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

variable (V : (c : Dev nD) → (b : Ref sig .tc) → Buf (Elt Ideal) ((c : Thread nD τ).loc b))

theorem blk0 (c : Dev nD) (t : Fin cfg1.N) (y : S1000x64.Idx) (k : S100000x64.Idx)
    (hk0 : (k 0).val = t.val * 1000 + (y 0).val) (hk1 : (k 1).val = (y 1).val) :
    (iblk1 V c 0 t : Vec Ideal S1000x64 .f32) y = (V c main_v35 : S100000x64.Idx → EReal) k := by
  obtain ⟨a0, a1, -⟩ := idx_facts t
  unfold iblk1
  rw [View.read_apply]
  show V c main_v35 _ = V c main_v35 _
  congr 1
  funext a
  apply Fin.ext
  match a with
  | ⟨0, _⟩ => show win1_0.index t 0 * 1000 + 1 * (y 0).val = (k 0).val; rw [a0, hk0]; omega
  | ⟨1, _⟩ => show win1_0.index t 1 * 64 + 1 * (y 1).val = (k 1).val; rw [a1, hk1]; omega

theorem blk1 (c : Dev nD) (t : Fin cfg1.N) (y : S1000x64.Idx) (k : S100000x64.Idx)
    (hk0 : (k 0).val = t.val * 1000 + (y 0).val) (hk1 : (k 1).val = (y 1).val) :
    (iblk1 V c 1 t : Vec Ideal S1000x64 .f32) y = (V c main_v38 : S100000x64.Idx → EReal) k := by
  obtain ⟨-, -, a0, a1, -⟩ := idx_facts t
  unfold iblk1
  rw [View.read_apply]
  show V c main_v38 _ = V c main_v38 _
  congr 1
  funext a
  apply Fin.ext
  match a with
  | ⟨0, _⟩ => show win1_1.index t 0 * 1000 + 1 * (y 0).val = (k 0).val; rw [a0, hk0]; omega
  | ⟨1, _⟩ => show win1_1.index t 1 * 64 + 1 * (y 1).val = (k 1).val; rw [a1, hk1]; omega

theorem blk2 (c : Dev nD) (t : Fin cfg1.N) (y : S64x64.Idx) :
    (iblk1 V c 2 t : Vec Ideal S64x64 .f32) y = (V c main_arg7 : S64x64.Idx → EReal) y := by
  obtain ⟨-, -, -, -, a0, a1, -⟩ := idx_facts t
  unfold iblk1
  rw [View.read_apply]
  show V c main_arg7 _ = V c main_arg7 _
  congr 1
  funext a
  apply Fin.ext
  match a with
  | ⟨0, _⟩ => show win1_2.index t 0 * 64 + 1 * (y 0).val = (y 0).val; rw [a0]; omega
  | ⟨1, _⟩ => show win1_2.index t 1 * 64 + 1 * (y 1).val = (y 1).val; rw [a1]; omega

theorem blk3 (c : Dev nD) (t : Fin cfg1.N) (y : S1x64.Idx) :
    (iblk1 V c 3 t : Vec Ideal S1x64 .f32) y = (V c main_v39 : S1x64.Idx → EReal) y := by
  obtain ⟨-, -, -, -, -, -, a0, a1, -⟩ := idx_facts t
  unfold iblk1
  rw [View.read_apply]
  show V c main_v39 _ = V c main_v39 _
  congr 1
  funext a
  apply Fin.ext
  match a with
  | ⟨0, _⟩ => show win1_3.index t 0 * 1 + 1 * (y 0).val = (y 0).val; rw [a0]; omega
  | ⟨1, _⟩ => show win1_3.index t 1 * 64 + 1 * (y 1).val = (y 1).val; rw [a1]; omega

theorem blk4 (c : Dev nD) (t : Fin cfg1.N) (y : S64x64.Idx) :
    (iblk1 V c 4 t : Vec Ideal S64x64 .f32) y = (V c main_arg9 : S64x64.Idx → EReal) y := by
  obtain ⟨-, -, -, -, -, -, -, -, a0, a1, -⟩ := idx_facts t
  unfold iblk1
  rw [View.read_apply]
  show V c main_arg9 _ = V c main_arg9 _
  congr 1
  funext a
  apply Fin.ext
  match a with
  | ⟨0, _⟩ => show win1_4.index t 0 * 64 + 1 * (y 0).val = (y 0).val; rw [a0]; omega
  | ⟨1, _⟩ => show win1_4.index t 1 * 64 + 1 * (y 1).val = (y 1).val; rw [a1]; omega

theorem blk5 (c : Dev nD) (t : Fin cfg1.N) (y : S1x64.Idx) :
    (iblk1 V c 5 t : Vec Ideal S1x64 .f32) y = (V c main_v40 : S1x64.Idx → EReal) y := by
  obtain ⟨-, -, -, -, -, -, -, -, -, -, a0, a1, -⟩ := idx_facts t
  unfold iblk1
  rw [View.read_apply]
  show V c main_v40 _ = V c main_v40 _
  congr 1
  funext a
  apply Fin.ext
  match a with
  | ⟨0, _⟩ => show win1_5.index t 0 * 1 + 1 * (y 0).val = (y 0).val; rw [a0]; omega
  | ⟨1, _⟩ => show win1_5.index t 1 * 64 + 1 * (y 1).val = (y 1).val; rw [a1]; omega

/-! ## What a point writes back, and the arrays at the end -/

/-- Point t writes back block t of the real-part function of the entry arrays. -/
theorem flushedRe (c : Dev nD) (t : Fin cfg1.N) :
    (dat1 V c).flushed 6 t = ((cfg1.win 6).blk t).view.read (Elt Ideal)
      (mixReRow (V c main_v35) (V c main_v38) (V c main_arg7) (V c main_v39) (V c main_arg9) (V c main_v40)) := by
  show (cfg1.win 6).cut (grid1.coords t) ((dat1 V c).after 6 t) = _
  rw [after1_6]
  unfold out1_6
  rw [View.canon_unit_zero hz]
  simp only [View.ld_unit_zero (S := S1000x64) hz, View.ld_unit_zero (S := S64x64) hz, View.ld_unit_zero (S := S1x64) hz]
  obtain ⟨-, -, -, -, -, -, -, -, -, -, -, -, f0, f1, -⟩ := idx_facts t
  funext j
  refine entryRe (V c main_v35) (V c main_v38) (V c main_arg7) (V c main_arg9) (V c main_v39) (V c main_v40)
    (iblk1 V c 0 t) (iblk1 V c 1 t) (iblk1 V c 2 t) (iblk1 V c 4 t) (iblk1 V c 3 t) (iblk1 V c 5 t) t.val
    (blk0 V c t) (blk1 V c t) (blk2 V c t) (blk4 V c t) (blk3 V c t) (blk5 V c t) j (((cfg1.win 6).blk t).view.emb j) ?_ ?_
  · show win1_6.index t 0 * 1000 + 1 * (j 0).val = t.val * 1000 + (j 0).val; rw [f0]; omega
  · show win1_6.index t 1 * 64 + 1 * (j 1).val = (j 1).val; rw [f1]; omega

/-- Point t writes back block t of the imaginary-part function of the entry arrays. -/
theorem flushedIm (c : Dev nD) (t : Fin cfg1.N) :
    (dat1 V c).flushed 7 t = ((cfg1.win 7).blk t).view.read (Elt Ideal)
      (mixImRow (V c main_v35) (V c main_v38) (V c main_arg7) (V c main_v39) (V c main_arg9) (V c main_v40)) := by
  show (cfg1.win 7).cut (grid1.coords t) ((dat1 V c).after 7 t) = _
  rw [after1_7]
  unfold out1_7
  rw [View.canon_unit_zero hz]
  simp only [View.ld_unit_zero (S := S1000x64) hz, View.ld_unit_zero (S := S64x64) hz, View.ld_unit_zero (S := S1x64) hz]
  obtain ⟨-, -, -, -, -, -, -, -, -, -, -, -, -, -, g0, g1⟩ := idx_facts t
  funext j
  refine entryIm (V c main_v35) (V c main_v38) (V c main_arg7) (V c main_arg9) (V c main_v39) (V c main_v40)
    (iblk1 V c 0 t) (iblk1 V c 1 t) (iblk1 V c 2 t) (iblk1 V c 4 t) (iblk1 V c 3 t) (iblk1 V c 5 t) t.val
    (blk0 V c t) (blk1 V c t) (blk2 V c t) (blk4 V c t) (blk3 V c t) (blk5 V c t) j (((cfg1.win 7).blk t).view.emb j) ?_ ?_
  · show win1_7.index t 0 * 1000 + 1 * (j 0).val = t.val * 1000 + (j 0).val; rw [g0]; omega
  · show win1_7.index t 1 * 64 + 1 * (j 1).val = (j 1).val; rw [g1]; omega

theorem mem_blk6 (t : Fin cfg1.N) (i : S100000x64.Idx) :
    i ∈ ((cfg1.win 6).blk t).view.set ↔ ∀ a : Fin 2, win1_6.index t a * S1000x64.size a ≤ (i a).val ∧ (i a).val < win1_6.index t a * S1000x64.size a + S1000x64.size a := by
  show i ∈ ((View.whole main_v41_0).slice (win1_6.rect t)).set ↔ _
  rw [View.set_slice_whole, Rect.mem_set_unit]
  exact Iff.rfl

theorem mem_blk7 (t : Fin cfg1.N) (i : S100000x64.Idx) :
    i ∈ ((cfg1.win 7).blk t).view.set ↔ ∀ a : Fin 2, win1_7.index t a * S1000x64.size a ≤ (i a).val ∧ (i a).val < win1_7.index t a * S1000x64.size a + S1000x64.size a := by
  show i ∈ ((View.whole main_v41_1).slice (win1_7.rect t)).set ↔ _
  rw [View.set_slice_whole, Rect.mem_set_unit]
  exact Iff.rfl

/-- Every row is in the block of the point row / 1000. -/
theorem cover6 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  let t : Fin cfg1.N := ⟨(i 0).val / 1000, by show (i 0).val / 1000 < 100; omega⟩
  obtain ⟨-, -, -, -, -, -, -, -, -, -, -, -, f0, f1, -⟩ := idx_facts t
  refine ⟨t, flush1_6 t, ?_⟩
  rw [mem_blk6]
  intro a
  have ht : t.val = (i 0).val / 1000 := rfl
  match a with
  | ⟨0, _⟩ => show win1_6.index t 0 * 1000 ≤ (i 0).val ∧ (i 0).val < win1_6.index t 0 * 1000 + 1000; rw [f0, ht]; omega
  | ⟨1, _⟩ => show win1_6.index t 1 * 64 ≤ (i 1).val ∧ (i 1).val < win1_6.index t 1 * 64 + 64; rw [f1]; omega

theorem cover7 (i : S100000x64.Idx) : ∃ t : Fin cfg1.N, (cfg1.win 7).flush t = true ∧ i ∈ ((cfg1.win 7).blk t).view.set := by
  have hi0 : (i 0).val < 100000 := (i 0).isLt
  have hi1 : (i 1).val < 64 := (i 1).isLt
  let t : Fin cfg1.N := ⟨(i 0).val / 1000, by show (i 0).val / 1000 < 100; omega⟩
  obtain ⟨-, -, -, -, -, -, -, -, -, -, -, -, -, -, g0, g1⟩ := idx_facts t
  refine ⟨t, flush1_7 t, ?_⟩
  rw [mem_blk7]
  intro a
  have ht : t.val = (i 0).val / 1000 := rfl
  match a with
  | ⟨0, _⟩ => show win1_7.index t 0 * 1000 ≤ (i 0).val ∧ (i 0).val < win1_7.index t 0 * 1000 + 1000; rw [g0, ht]; omega
  | ⟨1, _⟩ => show win1_7.index t 1 * 64 ≤ (i 1).val ∧ (i 1).val < win1_7.index t 1 * 64 + 64; rw [g1]; omega

/-- The real-part result array when the region ends. -/
theorem finalRe (c : Dev nD) :
    (dat1 V c).arrAt 6 cfg1.N = mixReRow (V c main_v35) (V c main_v38) (V c main_arg7) (V c main_v39) (V c main_arg9) (V c main_v40) :=
  (dat1 V c).arrAt_eq_of_cover 6 _ (fun t _ => flushedRe V c t) cover6

/-- The imaginary-part result array when the region ends. -/
theorem finalIm (c : Dev nD) :
    (dat1 V c).arrAt 7 cfg1.N = mixImRow (V c main_v35) (V c main_v38) (V c main_arg7) (V c main_v39) (V c main_arg9) (V c main_v40) :=
  (dat1 V c).arrAt_eq_of_cover 7 _ (fun t _ => flushedIm V c t) cover7

end Cert.KernelIdeal.Mix

end
-- ==== Proof.KWhole.lean ====
/-
  The idealized kernel program's two results as closed functions of the eleven argument arrays: the node update
  (`Spec.mixRe`, `Spec.mixIm`) of the per-destination sums of the per-edge messages (`Spec.msgRe`, `Spec.msgIm`) of the
  gathered rows h_re[src], h_im[src], the product d[dst]·d[src], and the two weight vectors.

  Put together from the second region's arrays at its end, the host operations between the regions, the first
  region's arrays at its end, and the host operations before it. The columns [1600000, 1] and rows [1, 64] the regions
  read are the vectors reshaped, so the column and row forms of the functions are the vector forms.
-/
import proofs.«132785_j67585605369883_1_alg».proof.Proof.Stretch
import proofs.«132785_j67585605369883_1_alg».proof.Proof.Edge
import proofs.«132785_j67585605369883_1_alg».proof.Proof.Mix
import proofs.«132785_j67585605369883_1_alg».proof.Proof.Spec
import Idealize.ShloMosaic.Lib.Pipeline.Value
import Idealize.ShloMosaic.Lib.ValueIdx

set_option maxRecDepth 16384

noncomputable section

namespace Cert.KernelIdeal.Whole

open Cert.KernelIdeal Cert.KernelIdeal.Gen Cert.KernelIdeal.Stretch
open Idealize.ShloMosaic Idealize.ShloMosaic.TcCoe Idealize.ShloMosaic.ValueIdx Idealize.SL.Sem
open Cert.Spec

/-- The real part of the per-edge messages, from the argument arrays. -/
def wholeMsgRe (x0 x1 : (⟨S100000x64, .f32⟩ : BufTy).Contents (Elt Ideal)) (x2 : (⟨S100000, .f32⟩ : BufTy).Contents (Elt Ideal)) (x3 x4 : (⟨S1600000, .f32⟩ : BufTy).Contents (Elt Ideal)) (x5 x6 : (⟨S1600000, .i32⟩ : BufTy).Contents (Elt Ideal)) : (⟨S1600000x64, .f32⟩ : BufTy).Contents (Elt Ideal) :=
  msgRe (E := 1600000) (D := 64) (rowsAt (F := Ideal) x0 x5) (rowsAt (F := Ideal) x1 x5)
    (mulf (F := Ideal) (s := S1600000) (φ := .f32) (numsAt (F := Ideal) x2 x6) (numsAt (F := Ideal) x2 x5)) x3 x4

/-- The imaginary part of the per-edge messages. -/
def wholeMsgIm (x0 x1 : (⟨S100000x64, .f32⟩ : BufTy).Contents (Elt Ideal)) (x2 : (⟨S100000, .f32⟩ : BufTy).Contents (Elt Ideal)) (x3 x4 : (⟨S1600000, .f32⟩ : BufTy).Contents (Elt Ideal)) (x5 x6 : (⟨S1600000, .i32⟩ : BufTy).Contents (Elt Ideal)) : (⟨S1600000x64, .f32⟩ : BufTy).Contents (Elt Ideal) :=
  msgIm (E := 1600000) (D := 64) (rowsAt (F := Ideal) x0 x5) (rowsAt (F := Ideal) x1 x5)
    (mulf (F := Ideal) (s := S1600000) (φ := .f32) (numsAt (F := Ideal) x2 x6) (numsAt (F := Ideal) x2 x5)) x3 x4

/-- The first result. -/
def wholeRe (x0 x1 : (⟨S100000x64, .f32⟩ : BufTy).Contents (Elt Ideal)) (x2 : (⟨S100000, .f32⟩ : BufTy).Contents (Elt Ideal)) (x3 x4 : (⟨S1600000, .f32⟩ : BufTy).Contents (Elt Ideal)) (x5 x6 : (⟨S1600000, .i32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) : (⟨S100000x64, .f32⟩ : BufTy).Contents (Elt Ideal) :=
  mixRe (N := 100000) (D := 64) (sumByDst (F := Ideal) x6 (wholeMsgRe x0 x1 x2 x3 x4 x5 x6))
    (sumByDst (F := Ideal) x6 (wholeMsgIm x0 x1 x2 x3 x4 x5 x6)) x7 x8 x9 x10

/-- The second result. -/
def wholeIm (x0 x1 : (⟨S100000x64, .f32⟩ : BufTy).Contents (Elt Ideal)) (x2 : (⟨S100000, .f32⟩ : BufTy).Contents (Elt Ideal)) (x3 x4 : (⟨S1600000, .f32⟩ : BufTy).Contents (Elt Ideal)) (x5 x6 : (⟨S1600000, .i32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) : (⟨S100000x64, .f32⟩ : BufTy).Contents (Elt Ideal) :=
  mixIm (N := 100000) (D := 64) (sumByDst (F := Ideal) x6 (wholeMsgRe x0 x1 x2 x3 x4 x5 x6))
    (sumByDst (F := Ideal) x6 (wholeMsgIm x0 x1 x2 x3 x4 x5 x6)) x7 x8 x9 x10

/-! ## A vector reshaped to a column or to a row -/

theorem col_of_vec (v : (⟨S1600000, .f32⟩ : BufTy).Contents (Elt Ideal)) (e : Fin 1600000) :
    shapeCast S1600000x1 v shapeCasts_S1600000_S1600000x1 (ix2 e 0) = v (ix1 e) :=
  shapeCast_apply v shapeCasts_S1600000_S1600000x1 (ix2 e 0) (ix1 e) (by
    rw [Shape.rowMajor_val_one, Shape.rowMajor_val_two]
    show e.val = e.val * 1 + 0
    omega)

theorem row_of_vec (b : (⟨S64, .f32⟩ : BufTy).Contents (Elt Ideal)) (j : Fin 64) :
    shapeCast S1x64 b shapeCasts_S64_S1x64 (ix2 0 j) = b (ix1 j) :=
  shapeCast_apply b shapeCasts_S64_S1x64 (ix2 0 j) (ix1 j) (by
    rw [Shape.rowMajor_val_one, Shape.rowMajor_val_two]
    show j.val = 0 * 64 + j.val
    omega)

/-! ## The first region's arrays, from the arguments -/

variable (m : (ℓ : Loc nD τ sig) → Buf (Elt Ideal) ℓ) (ρ : Dev nD → PrngReg)

theorem msg_re (c : Dev nD) : (dat0 (V1 m ρ) c).arrAt 5 cfg0.N = wholeMsgRe (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [Edge.finalRe (V1 m ρ) c, entry0_hr, entry0_hi, entry0_dd, entry0_wr, entry0_wi]
  unfold wholeMsgRe
  exact msgReCol_of (E := 1600000) (D := 64) _ _ _ _ _ _ _ _ (col_of_vec _) (col_of_vec _) (col_of_vec _)

theorem msg_im (c : Dev nD) : (dat0 (V1 m ρ) c).arrAt 6 cfg0.N = wholeMsgIm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [Edge.finalIm (V1 m ρ) c, entry0_hr, entry0_hi, entry0_dd, entry0_wr, entry0_wi]
  unfold wholeMsgIm
  exact msgImCol_of (E := 1600000) (D := 64) _ _ _ _ _ _ _ _ (col_of_vec _) (col_of_vec _) (col_of_vec _)

/-! ## The results, from the arguments -/

theorem result_re_eq (c : Dev nD) : W4 m ρ c (Proc.devRef .tc main_v41_0) = wholeRe (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [result_re, Mix.finalRe (V3 m ρ) c, entry1_zr, entry1_zi, entry1_W1, entry1_W2, entry1_b1, entry1_b2, msg_re, msg_im]
  unfold wholeRe
  exact mixReRow_of (N := 100000) (D := 64) _ _ _ _ _ _ _ _ (row_of_vec _) (row_of_vec _)

theorem result_im_eq (c : Dev nD) : W4 m ρ c (Proc.devRef .tc main_v41_1) = wholeIm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [result_im, Mix.finalIm (V3 m ρ) c, entry1_zr, entry1_zi, entry1_W1, entry1_W2, entry1_b1, entry1_b2, msg_re, msg_im]
  unfold wholeIm
  exact mixImRow_of (N := 100000) (D := 64) _ _ _ _ _ _ _ _ (row_of_vec _) (row_of_vec _)

end Cert.KernelIdeal.Whole

end
-- ==== Proof.RefTerm.lean ====
/-
  The reference read into the same functions: its two results are the node update `Spec.mixRe`, `Spec.mixIm` of its two
  scatter-added arrays, and the arrays it scatters are the per-edge messages `Spec.msgRe`, `Spec.msgIm` of its gathered
  rows, the product d[dst]·d[src], and the two weight vectors.

  Each is read entry by entry through the reference's operations: a product with a transposed matrix is
  Σ_k z(n,k)·W(j,k); a vector made a row and spread over the rows reads its column; a per-edge number made a column
  and spread over the features reads its row.
-/
import proofs.«132785_j67585605369883_1_alg».proof.Defs
import proofs.«132785_j67585605369883_1_alg».proof.Proof.Gen.ReferenceIdeal.Run
import proofs.«132785_j67585605369883_1_alg».proof.Proof.Gen.ReferenceIdeal.Read
import proofs.«132785_j67585605369883_1_alg».proof.Proof.Spec

set_option maxRecDepth 16384

noncomputable section

open scoped BigOperators

namespace Cert.ReferenceIdeal.Whole

open Cert.ReferenceIdeal Cert.ReferenceIdeal.Read
open Idealize.ShloMosaic Idealize.ShloMosaic.TcCoe Idealize.ShloMosaic.ValueIdx Idealize.SL.Sem
open Cert.Spec

/-! ## Index bookkeeping -/

theorem lidx_eq (i : S100000x64.Idx) (k : Fin 64) : lidx_main_v50 i k = ix2 (row i) k :=
  funext fun a => by match a with
    | ⟨0, _⟩ => rfl
    | ⟨1, _⟩ => rfl

theorem ridxT_eq (i : S100000x64.Idx) (k : Fin 64) : idx_main_v49 (ridx_main_v50 i k) = ix2 (col i) k :=
  funext fun a => by match a with
    | ⟨0, _⟩ => rfl
    | ⟨1, _⟩ => rfl

theorem bias_idx_eq (i : S100000x64.Idx) : idx_main_v51 (idx_main_v52 i) = ix1 (col i) :=
  funext fun a => by match a with
    | ⟨0, _⟩ => rfl

theorem edge_idx_eq (i : S1600000x64.Idx) : idx_main_v16 (idx_main_v33 i) = ix1 (row i) :=
  funext fun a => by match a with
    | ⟨0, _⟩ => rfl

/-! ## One affine term of the reference -/

/-- z·Wᵀ + b as the reference computes it (transpose, dot_general, the bias made a row and spread), entry by entry. -/
theorem affine_eq (z : (⟨S100000x64, .f32⟩ : BufTy).Contents (Elt Ideal)) (W : (⟨S64x64, .f32⟩ : BufTy).Contents (Elt Ideal))
    (b : (⟨S64, .f32⟩ : BufTy).Contents (Elt Ideal)) (i : S100000x64.Idx) :
    (∑ k : Fin 64, z (lidx_main_v50 i k) * (val_main_v49 (F := Ideal) W) (ridx_main_v50 i k)) + val_main_v52 (F := Ideal) b i
      = lin z W b i := by
  rw [val_main_v52_apply, val_main_v51_apply, bias_idx_eq]
  unfold lin
  congr 1
  exact Finset.sum_congr rfl fun k _ => by rw [val_main_v49_apply, lidx_eq, ridxT_eq]

/-! ## The two results -/

/-- The reference's first result is the real part of the node update of its two scatter-added arrays. -/
theorem ref_re (x0 x1 : (⟨S100000x64, .f32⟩ : BufTy).Contents (Elt Ideal)) (x2 : (⟨S100000, .f32⟩ : BufTy).Contents (Elt Ideal)) (x3 x4 : (⟨S1600000, .f32⟩ : BufTy).Contents (Elt Ideal)) (x5 x6 : (⟨S1600000, .i32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) :
    val_main_v59 (F := Ideal) x0 x1 x2 x3 x4 x5 x6 x7 x8 x9 x10
      = mixRe (val_main_v45 (F := Ideal) x0 x1 x2 x3 x4 x5 x6) (val_main_v48 (F := Ideal) x0 x1 x2 x3 x4 x5 x6) x7 x8 x9 x10 := by
  funext i
  rw [val_main_v59_apply, val_main_v53_apply, val_main_v58_apply, val_main_v50_apply, val_main_v55_apply]
  unfold mixRe
  exact congrArg₂ (· - ·) (affine_eq _ x7 x8 i) (affine_eq _ x9 x10 i)

/-- The reference's second result is the imaginary part, over the first result. -/
theorem ref_im (x0 x1 : (⟨S100000x64, .f32⟩ : BufTy).Contents (Elt Ideal)) (x2 : (⟨S100000, .f32⟩ : BufTy).Contents (Elt Ideal)) (x3 x4 : (⟨S1600000, .f32⟩ : BufTy).Contents (Elt Ideal)) (x5 x6 : (⟨S1600000, .i32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) :
    val_main_v70 (F := Ideal) x0 x1 x2 x3 x4 x5 x6 x7 x8 x9 x10
      = mixIm (val_main_v45 (F := Ideal) x0 x1 x2 x3 x4 x5 x6) (val_main_v48 (F := Ideal) x0 x1 x2 x3 x4 x5 x6) x7 x8 x9 x10 := by
  funext i
  rw [val_main_v70_apply, val_main_v64_apply, val_main_v69_apply, val_main_v61_apply, val_main_v66_apply, ref_re]
  unfold mixIm
  exact congrArg₂ (· + ·) (affine_eq _ x9 x10 i) (affine_eq _ x7 x8 i)

/-! ## The two scattered arrays -/

/-- The array the reference scatters first is the real part of the per-edge message. -/
theorem ref_msg_re (x0 x1 : (⟨S100000x64, .f32⟩ : BufTy).Contents (Elt Ideal)) (x2 : (⟨S100000, .f32⟩ : BufTy).Contents (Elt Ideal)) (x3 x4 : (⟨S1600000, .f32⟩ : BufTy).Contents (Elt Ideal)) (x5 x6 : (⟨S1600000, .i32⟩ : BufTy).Contents (Elt Ideal)) :
    val_main_v37 (F := Ideal) x0 x1 x2 x3 x4 x5 x6
      = msgRe (val_main_v25 (F := Ideal) x0 x5) (val_main_v32 (F := Ideal) x1 x5) (val_main_v14 (F := Ideal) x2 x5 x6) x3 x4 := by
  funext i
  rw [val_main_v37_apply, val_main_v34_apply, val_main_v36_apply, val_main_v33_apply, val_main_v16_apply, val_main_v15_apply,
    val_main_v35_apply, val_main_v18_apply, val_main_v17_apply, edge_idx_eq,
    show idx_main_v18 (idx_main_v35 i) = ix1 (row i) from edge_idx_eq i]
  rfl

/-- The array it scatters second is the imaginary part. -/
theorem ref_msg_im (x0 x1 : (⟨S100000x64, .f32⟩ : BufTy).Contents (Elt Ideal)) (x2 : (⟨S100000, .f32⟩ : BufTy).Contents (Elt Ideal)) (x3 x4 : (⟨S1600000, .f32⟩ : BufTy).Contents (Elt Ideal)) (x5 x6 : (⟨S1600000, .i32⟩ : BufTy).Contents (Elt Ideal)) :
    val_main_v42 (F := Ideal) x0 x1 x2 x3 x4 x5 x6
      = msgIm (val_main_v25 (F := Ideal) x0 x5) (val_main_v32 (F := Ideal) x1 x5) (val_main_v14 (F := Ideal) x2 x5 x6) x3 x4 := by
  funext i
  rw [val_main_v42_apply, val_main_v39_apply, val_main_v41_apply, val_main_v38_apply, val_main_v18_apply, val_main_v17_apply,
    val_main_v40_apply, val_main_v16_apply, val_main_v15_apply,
    show idx_main_v18 (idx_main_v38 i) = ix1 (row i) from edge_idx_eq i,
    show idx_main_v16 (idx_main_v40 i) = ix1 (row i) from edge_idx_eq i]
  rfl

end Cert.ReferenceIdeal.Whole

end
-- ==== Proof.Link.lean ====
/-
  The two programs spell the same host operations with the same dimension records and shapes (the wrapped-index gathers
  of rows and of numbers, the product d[dst]·d[src], the scatter-add into zeros): the reference's stage functions are
  the kernel-side ones. With the reference read into the node update of the scattered messages, its two results are
  the same closed functions of the argument arrays as the kernel program's.
-/
import proofs.«132785_j67585605369883_1_alg».proof.Proof.KWhole
import proofs.«132785_j67585605369883_1_alg».proof.Proof.RefTerm

set_option maxRecDepth 16384

noncomputable section

namespace Cert.Link

open Cert.ReferenceIdeal Cert.ReferenceIdeal.Read
open Idealize.ShloMosaic Idealize.ShloMosaic.TcCoe Idealize.SL.Sem
open Cert.KernelIdeal.Stretch (rowsAt numsAt sumByDst wrapIdx)
open Cert.KernelIdeal.Whole (wholeRe wholeIm wholeMsgRe wholeMsgIm)

/-- Rows of h_re at the wrapped src. -/
theorem rows_re (x0 : (⟨S100000x64, .f32⟩ : BufTy).Contents (Elt Ideal)) (x5 : (⟨S1600000, .i32⟩ : BufTy).Contents (Elt Ideal)) :
    val_main_v25 (F := Ideal) x0 x5 = rowsAt (F := Ideal) x0 x5 := rfl

/-- Rows of h_im at the wrapped src. -/
theorem rows_im (x1 : (⟨S100000x64, .f32⟩ : BufTy).Contents (Elt Ideal)) (x5 : (⟨S1600000, .i32⟩ : BufTy).Contents (Elt Ideal)) :
    val_main_v32 (F := Ideal) x1 x5 = rowsAt (F := Ideal) x1 x5 := rfl

/-- d[dst]·d[src]. -/
theorem dd_eq (x2 : (⟨S100000, .f32⟩ : BufTy).Contents (Elt Ideal)) (x5 x6 : (⟨S1600000, .i32⟩ : BufTy).Contents (Elt Ideal)) :
    val_main_v14 (F := Ideal) x2 x5 x6 = mulf (F := Ideal) (s := S1600000) (φ := .f32) (numsAt (F := Ideal) x2 x6) (numsAt (F := Ideal) x2 x5) := rfl

/-- The two scatter-adds. -/
theorem sum_re (x0 x1 : (⟨S100000x64, .f32⟩ : BufTy).Contents (Elt Ideal)) (x2 : (⟨S100000, .f32⟩ : BufTy).Contents (Elt Ideal)) (x3 x4 : (⟨S1600000, .f32⟩ : BufTy).Contents (Elt Ideal)) (x5 x6 : (⟨S1600000, .i32⟩ : BufTy).Contents (Elt Ideal)) :
    val_main_v45 (F := Ideal) x0 x1 x2 x3 x4 x5 x6 = sumByDst (F := Ideal) x6 (val_main_v37 (F := Ideal) x0 x1 x2 x3 x4 x5 x6) := rfl

theorem sum_im (x0 x1 : (⟨S100000x64, .f32⟩ : BufTy).Contents (Elt Ideal)) (x2 : (⟨S100000, .f32⟩ : BufTy).Contents (Elt Ideal)) (x3 x4 : (⟨S1600000, .f32⟩ : BufTy).Contents (Elt Ideal)) (x5 x6 : (⟨S1600000, .i32⟩ : BufTy).Contents (Elt Ideal)) :
    val_main_v48 (F := Ideal) x0 x1 x2 x3 x4 x5 x6 = sumByDst (F := Ideal) x6 (val_main_v42 (F := Ideal) x0 x1 x2 x3 x4 x5 x6) := rfl

/-- The arrays the reference scatters are the kernel program's message arrays. -/
theorem msg_re (x0 x1 : (⟨S100000x64, .f32⟩ : BufTy).Contents (Elt Ideal)) (x2 : (⟨S100000, .f32⟩ : BufTy).Contents (Elt Ideal)) (x3 x4 : (⟨S1600000, .f32⟩ : BufTy).Contents (Elt Ideal)) (x5 x6 : (⟨S1600000, .i32⟩ : BufTy).Contents (Elt Ideal)) : val_main_v37 (F := Ideal) x0 x1 x2 x3 x4 x5 x6 = wholeMsgRe x0 x1 x2 x3 x4 x5 x6 := by
  rw [Cert.ReferenceIdeal.Whole.ref_msg_re, rows_re, rows_im, dd_eq]
  rfl

theorem msg_im (x0 x1 : (⟨S100000x64, .f32⟩ : BufTy).Contents (Elt Ideal)) (x2 : (⟨S100000, .f32⟩ : BufTy).Contents (Elt Ideal)) (x3 x4 : (⟨S1600000, .f32⟩ : BufTy).Contents (Elt Ideal)) (x5 x6 : (⟨S1600000, .i32⟩ : BufTy).Contents (Elt Ideal)) : val_main_v42 (F := Ideal) x0 x1 x2 x3 x4 x5 x6 = wholeMsgIm x0 x1 x2 x3 x4 x5 x6 := by
  rw [Cert.ReferenceIdeal.Whole.ref_msg_im, rows_re, rows_im, dd_eq]
  rfl

/-- The reference's first result is the kernel program's first result, as functions of the arguments. -/
theorem whole_re (x0 x1 : (⟨S100000x64, .f32⟩ : BufTy).Contents (Elt Ideal)) (x2 : (⟨S100000, .f32⟩ : BufTy).Contents (Elt Ideal)) (x3 x4 : (⟨S1600000, .f32⟩ : BufTy).Contents (Elt Ideal)) (x5 x6 : (⟨S1600000, .i32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) :
    val_main_v59 (F := Ideal) x0 x1 x2 x3 x4 x5 x6 x7 x8 x9 x10 = wholeRe x0 x1 x2 x3 x4 x5 x6 x7 x8 x9 x10 := by
  rw [Cert.ReferenceIdeal.Whole.ref_re, sum_re, sum_im, msg_re, msg_im]
  rfl

/-- The same for the second result. -/
theorem whole_im (x0 x1 : (⟨S100000x64, .f32⟩ : BufTy).Contents (Elt Ideal)) (x2 : (⟨S100000, .f32⟩ : BufTy).Contents (Elt Ideal)) (x3 x4 : (⟨S1600000, .f32⟩ : BufTy).Contents (Elt Ideal)) (x5 x6 : (⟨S1600000, .i32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) :
    val_main_v70 (F := Ideal) x0 x1 x2 x3 x4 x5 x6 x7 x8 x9 x10 = wholeIm x0 x1 x2 x3 x4 x5 x6 x7 x8 x9 x10 := by
  rw [Cert.ReferenceIdeal.Whole.ref_im, sum_re, sum_im, msg_re, msg_im]
  rfl

end Cert.Link

end
-- ==== Proof.lean ====
/-
  A graph layer with complex node features: for every edge e the message (d[dst e]·d[src e])·(w_re(e) + i·w_im(e))·h[src e]
  is formed, the messages are summed at their destination nodes, and each node's sum z is mixed by two 64×64 real
  matrices and two biases: out_re = (z_re·W1ᵀ + b1) − (z_im·W2ᵀ + b2), out_im = (out_re·W2ᵀ + b2) + (z_im·W1ᵀ + b1).

  The kernel program gathers and scatters on the host and computes the per-edge product and the node mix in two kernel
  regions, block by block; the reference does everything on the host. Over the extended reals both compute the same
  operations in the same order, entry by entry (no law of arithmetic is used beyond reading a matrix product as a sum
  and a broadcast as a re-indexing): both end at the closed functions `wholeRe`, `wholeIm` of the eleven arguments.
  The gathers (negative indices wrapped once) and the scatter-adds are the same operations on both sides and are
  carried unopened. The frames are the generated ones; the reference's is its run with the results dropped.
-/
import proofs.«132785_j67585605369883_1_alg».proof.Defs
import proofs.«132785_j67585605369883_1_alg».proof.Proof.Gen.Kernel
import proofs.«132785_j67585605369883_1_alg».proof.Proof.Gen.Kernel.Skeleton
import proofs.«132785_j67585605369883_1_alg».proof.Proof.Gen.Kernel.Launch
import proofs.«132785_j67585605369883_1_alg».proof.Proof.Gen.Kernel.Points
import proofs.«132785_j67585605369883_1_alg».proof.Proof.Gen.Kernel.Frame
import proofs.«132785_j67585605369883_1_alg».proof.Proof.Gen.KernelIdeal
import proofs.«132785_j67585605369883_1_alg».proof.Proof.Gen.KernelIdeal.Skeleton
import proofs.«132785_j67585605369883_1_alg».proof.Proof.Gen.KernelIdeal.Launch
import proofs.«132785_j67585605369883_1_alg».proof.Proof.Gen.KernelIdeal.Points
import proofs.«132785_j67585605369883_1_alg».proof.Proof.Gen.KernelIdeal.Frame
import proofs.«132785_j67585605369883_1_alg».proof.Proof.Gen.ReferenceIdeal
import proofs.«132785_j67585605369883_1_alg».proof.Proof.Gen.ReferenceIdeal.Run
import proofs.«132785_j67585605369883_1_alg».proof.Proof.Gen.ReferenceIdeal.Read
import proofs.«132785_j67585605369883_1_alg».proof.Proof.Gen.Pre_finite_inputs
import proofs.«132785_j67585605369883_1_alg».proof.Proof.KRun
import proofs.«132785_j67585605369883_1_alg».proof.Proof.KWhole
import proofs.«132785_j67585605369883_1_alg».proof.Proof.RefTerm
import proofs.«132785_j67585605369883_1_alg».proof.Proof.Link
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run names its two results and keeps its arguments; the frame is the second half. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end with the two results at `wholeRe`, `wholeIm` of their arguments, and the arguments agree. -/
theorem algebraic : Cert.algebraic_KernelIdeal_ReferenceIdeal := by
  intro m ρ m' ρ' _ hagree
  refine ⟨fun c => Cert.KernelIdeal.Whole.wholeRe (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.KernelIdeal.Whole.wholeIm (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Whole.result_re_eq m ρ c),
        (h c).2.1.trans (Cert.KernelIdeal.Whole.result_im_eq m ρ c), (h c).2.2⟩)
      (Cert.KernelIdeal.Named.run_named (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8, e9, e10⟩ := hagree c
      rw [Cert.ReferenceIdeal.Read.val_main_v59_eq, Cert.Link.whole_re, e0, e1, e2, e3, e4, e5, e6, e7, e8, e9, e10]
    · obtain ⟨e0, e1, e2, e3, e4, e5, e6, e7, e8, e9, e10⟩ := hagree c
      rw [Cert.ReferenceIdeal.Read.val_main_v70_eq, Cert.Link.whole_im, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
